-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v42)) (v2 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_v43) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S50257x1024 : Shape := ⟨2, ![50257, 1024]⟩
abbrev S4096x1024 : Shape := ⟨2, ![4096, 1024]⟩
abbrev S4096 : Shape := ⟨1, ![4096]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S50257x1024 : S_.BroadcastsInDim S50257x1024 (![] : Fin 0 → Fin S50257x1024.rank)
  reducesTo_S50257x1024_S_d0_1 : S50257x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S50257 : S_.BroadcastsInDim S50257 (![] : Fin 0 → Fin S50257.rank)
  reducesTo_S50257_S_d0 : S50257.ReducesTo [0] S_

variable [Facts]

def fn_part2 {F : FTy → Type} [FloatOps F] (main_arg8 : FVec F S50257x1024 .f32) (main_arg9 : FVec F S50257 .f32) (main_v33 : IVec S_ 1) : IVec S_ 1 :=
  let main_v34 : FVec F S50257x1024 .f32 := Host.absf main_arg8
  let main_cst_12 : FVec F S_ .f32 := constant S_ .f32 0x7F800000#32
  let main_v35 : FVec F S50257x1024 .f32 := broadcastInDim S50257x1024 ![] bcast_S_S50257x1024 main_cst_12
  let main_v36 : IVec S50257x1024 1 := cmpf .olt main_v34 main_v35
  let main_c_13 : IVec S_ 1 := constantI S_ 1 1#1
  let main_v37 : IVec S_ 1 := (fun x v => Host.reduce IntOp.andi x v reducesTo_S50257x1024_S_d0_1 h_S_) main_v36 main_c_13
  let main_v38 : IVec S_ 1 := andi main_v33 main_v37
  let main_v39 : FVec F S50257 .f32 := Host.absf main_arg9
  let main_cst_14 : FVec F S_ .f32 := constant S_ .f32 0x7F800000#32
  let main_v40 : FVec F S50257 .f32 := broadcastInDim S50257 ![] bcast_S_S50257 main_cst_14
  let main_v41 : IVec S50257 1 := cmpf .olt main_v39 main_v40
  let main_c_15 : IVec S_ 1 := constantI S_ 1 1#1
  let main_v42 : IVec S_ 1 := (fun x v => Host.reduce IntOp.andi x v reducesTo_S50257_S_d0 h_S_) main_v41 main_c_15
  let main_v43 : IVec S_ 1 := andi main_v38 main_v42
  main_v43

def fn_part1 {F : FTy → Type} [FloatOps F] (main_arg5 : FVec F S4096x1024 .f32) (main_arg6 : FVec F S4096 .f32) (main_arg7 : FVec F S4096 .f32) (main_arg8 : FVec F S50257x1024 .f32) (main_arg9 : FVec F S50257 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg5
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg7
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg8 main_arg9 main_v33

def fn {F : FTy → Type} [FloatOps F] (main_arg0 : IVec S1 32) (main_arg1 : FVec F S1x1x1024 .f32) (main_arg2 : FVec F S1x1x1024 .f32) (main_arg3 : FVec F S50257x1024 .f32) (main_arg4 : FVec F S4096x1024 .f32) (main_arg5 : FVec F S4096x1024 .f32) (main_arg6 : FVec F S4096 .f32) (main_arg7 : FVec F S4096 .f32) (main_arg8 : FVec F S50257x1024 .f32) (main_arg9 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S1x1x1024 .f32 := Host.absf main_arg2
  let main_cst_0 : FVec F S_ .f32 := constant S_ .f32 0x7F800000#32
  let main_v5 : FVec F S1x1x1024 .f32 := broadcastInDim S1x1x1024 ![] bcast_S_S1x1x1024 main_cst_0
  let main_v6 : IVec S1x1x1024 1 := cmpf .olt main_v4 main_v5
  let main_c_1 : IVec S_ 1 := constantI S_ 1 1#1
  let main_v7 : IVec S_ 1 := (fun x v => Host.reduce IntOp.andi x v reducesTo_S1x1x1024_S_d0_1_2 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg5 main_arg6 main_arg7 main_arg8 main_arg9 main_v13 main_v16
-- ==== Kernel.lean ====
abbrev S1 : Shape := ⟨1, ![1]⟩
abbrev S1x1x1024 : Shape := ⟨3, ![1, 1, 1024]⟩
abbrev S50257x1024 : Shape := ⟨2, ![50257, 1024]⟩
abbrev S4096x1024 : Shape := ⟨2, ![4096, 1024]⟩
abbrev S4096 : Shape := ⟨1, ![4096]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x4096 : Shape := ⟨2, ![1, 4096]⟩
abbrev S1024x1024 : Shape := ⟨2, ![1024, 1024]⟩
abbrev S1x50257 : Shape := ⟨2, ![1, 50257]⟩
abbrev S3072x1024 : Shape := ⟨2, ![3072, 1024]⟩
abbrev S1x3072 : Shape := ⟨2, ![1, 3072]⟩

abbrev nBuf : Space → Nat
  | .hbm => 62
  | .vmem => 19
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S1x1x1024, .f32⟩
  | .hbm, ⟨3, _⟩ => ⟨S50257x1024, .f32⟩
  | .hbm, ⟨4, _⟩ => ⟨S4096x1024, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S50257x1024, .f32⟩
  | .hbm, ⟨9, _⟩ => ⟨S50257, .f32⟩
  | .hbm, ⟨10, _⟩ => ⟨S_, .i32⟩
  | .hbm, ⟨11, _⟩ => ⟨S1, .i32⟩
  | .hbm, ⟨12, _⟩ => ⟨S1, .i1⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S1, .i32⟩
  | .hbm, ⟨17, _⟩ => ⟨S1x1, .i32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x4096, .f32⟩
  | .hbm, ⟨22, _⟩ => ⟨S1x4096, .f32⟩
  | .hbm, ⟨23, _⟩ => ⟨S1x4096, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x50257, .f32⟩
  | .hbm, ⟨59, _⟩ => ⟨S1x50257, .f32⟩
  | .hbm, ⟨60, _⟩ => ⟨S1x1x1024, .f32⟩
  | .hbm, ⟨61, _⟩ => ⟨S1x1x1024, .f32⟩
  | .local _ .vmem, ⟨0, _⟩ => ⟨S1x1024, .f32⟩
  | .local _ .vmem, ⟨1, _⟩ => ⟨S1x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S3072x1024, .f32⟩
  | .local _ .vmem, ⟨14, _⟩ => ⟨S3072x1024, .f32⟩
  | .local _ .vmem, ⟨15, _⟩ => ⟨S1x3072, .f32⟩
  | .local _ .vmem, ⟨16, _⟩ => ⟨S1x3072, .f32⟩
  | .local _ .vmem, ⟨17, _⟩ => ⟨S1x3072, .f32⟩
  | .local _ .vmem, ⟨18, _⟩ => ⟨S1x3072, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![17], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S3072x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x3072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x3072 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  shapeCasts_S4096_S1x4096 : S4096.ShapeCasts S1x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  slices_S1x4096_S1x1024_0_0 : S1x4096.Slices ![0, 0] S1x1024
  bcast_S_S1x1024 : S_.BroadcastsInDim S1x1024 (![] : Fin 0 → Fin S1x1024.rank)
  slices_S1x4096_S1x1024_0_1024 : S1x4096.Slices ![0, 1024] S1x1024
  slices_S1x4096_S1x1024_0_2048 : S1x4096.Slices ![0, 2048] S1x1024
  slices_S1x4096_S1x1024_0_3072 : S1x4096.Slices ![0, 3072] S1x1024
  shapeCasts_S50257_S1x50257 : S50257.ShapeCasts S1x50257
  inb_S3072x1024_S3072x1024_0_0 : ∀ a, (![0, 0] : Fin 2 → Nat) a + S3072x1024.size a ≤ S3072x1024.size a
  h_S3072x1024 : 0 < S3072x1024.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  shapeCasts_S1x1024_S1x1x1024 : S1x1024.ShapeCasts S1x1x1024
  gather_S50257x1024_S1x1_S1x1024_1_0_n_n_0_1_11024_wf : GatherDims.WF S50257x1024 S1x1 S1x1024 [1] [0] [] [0] [] 1 ![1, 1024]
  dot_S1x1024_S1024x1024_S1x1024_1_1_0_0_n_n_wf : DotDims.WF S1x1024 S1024x1024 S1x1024 [1] [1] [0] [0] [] []
  dot_S1x1024_S3072x1024_S1x3072_1_1_0_0_n_n_wf : DotDims.WF S1x1024 S3072x1024 S1x3072 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .f32 = 32 ∨ (Rect.block (s := S4096x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .f32 = 32 ∨ (Rect.block (s := S4096x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S3072x1024.size a < S50257x1024.size a
  hwx1_1 : ∀ i : grid1.Coords, EltTy.bits .f32 = 32 ∨ (Rect.unit (s := S50257x1024) (fun a => cc1_transform_1 i a * S3072x1024.size a) (fun a => (Pipeline.Clip.of (cc1_transform_1 i a) (S3072x1024.size a) (S50257x1024.size a)).extent (S3072x1024.size a)) fun a => Pipeline.Clip.inb (Pipeline.Clip.ok_of (hstart1_1 i a))).WholeWords (EltTy.packing .f32)
  hwxs1_1 : ∀ i : grid1.Coords, EltTy.bits .f32 = 32 ∨ (Rect.unit (s := S3072x1024) (fun _ => 0) (fun a => (Pipeline.Clip.of (cc1_transform_1 i a) (S3072x1024.size a) (S50257x1024.size a)).extent (S3072x1024.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x3072.size a < S1x50257.size a
  hwx1_2 : ∀ i : grid1.Coords, EltTy.bits .f32 = 32 ∨ (Rect.unit (s := S1x50257) (fun a => cc1_transform_2 i a * S1x3072.size a) (fun a => (Pipeline.Clip.of (cc1_transform_2 i a) (S1x3072.size a) (S1x50257.size a)).extent (S1x3072.size a)) fun a => Pipeline.Clip.inb (Pipeline.Clip.ok_of (hstart1_2 i a))).WholeWords (EltTy.packing .f32)
  hwxs1_2 : ∀ i : grid1.Coords, EltTy.bits .f32 = 32 ∨ (Rect.unit (s := S1x3072) (fun _ => 0) (fun a => (Pipeline.Clip.of (cc1_transform_2 i a) (S1x3072.size a) (S1x50257.size a)).extent (S1x3072.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1x3072.size a < S1x50257.size a
  hwx1_3 : ∀ i : grid1.Coords, EltTy.bits .f32 = 32 ∨ (Rect.unit (s := S1x50257) (fun a => cc1_transform_3 i a * S1x3072.size a) (fun a => (Pipeline.Clip.of (cc1_transform_3 i a) (S1x3072.size a) (S1x50257.size a)).extent (S1x3072.size a)) fun a => Pipeline.Clip.inb (Pipeline.Clip.ok_of (hstart1_3 i a))).WholeWords (EltTy.packing .f32)
  hwxs1_3 : ∀ i : grid1.Coords, EltTy.bits .f32 = 32 ∨ (Rect.unit (s := S1x3072) (fun _ => 0) (fun a => (Pipeline.Clip.of (cc1_transform_3 i a) (S1x3072.size a) (S1x50257.size a)).extent (S1x3072.size a)) fun a => (Nat.zero_add _).trans_le (Pipeline.Clip.extent_le (Pipeline.Clip.ok_of (hstart1_3 i a)))).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1x1024_S3072x1024_S1x3072_1_1_0_0_n_n : DotDims S1x1024 S3072x1024 S1x3072 where
  lhsContracting := [1]
  rhsContracting := [1]
  lhsNonContracting := [0]
  rhsNonContracting := [0]
  lhsBatch := []
  rhsBatch := []
  wf := dot_S1x1024_S3072x1024_S1x3072_1_1_0_0_n_n_wf

abbrev win0_0 : Pipeline.Window sig grid0 :=
  Pipeline.Window.ofSpec (Memref.whole main_v6) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v39) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg8) S3072x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v40) S1x3072.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v41) S1x3072.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S50257x1024 : Shape := ⟨2, ![50257, 1024]⟩
abbrev S4096x1024 : Shape := ⟨2, ![4096, 1024]⟩
abbrev S4096 : Shape := ⟨1, ![4096]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1024x4096 : Shape := ⟨2, ![1024, 4096]⟩
abbrev S1x4096 : Shape := ⟨2, ![1, 4096]⟩
abbrev S1024x50257 : Shape := ⟨2, ![1024, 50257]⟩
abbrev S1x50257 : Shape := ⟨2, ![1, 50257]⟩

abbrev nBuf : Space → Nat
  | .hbm => 73
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S1x1x1024, .f32⟩
  | .hbm, ⟨3, _⟩ => ⟨S50257x1024, .f32⟩
  | .hbm, ⟨4, _⟩ => ⟨S4096x1024, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S50257x1024, .f32⟩
  | .hbm, ⟨9, _⟩ => ⟨S50257, .f32⟩
  | .hbm, ⟨10, _⟩ => ⟨S_, .i32⟩
  | .hbm, ⟨11, _⟩ => ⟨S1, .i32⟩
  | .hbm, ⟨12, _⟩ => ⟨S1, .i1⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S1, .i32⟩
  | .hbm, ⟨17, _⟩ => ⟨S1x1, .i32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1024x4096, .f32⟩
  | .hbm, ⟨25, _⟩ => ⟨S1x4096, .f32⟩
  | .hbm, ⟨26, _⟩ => ⟨S1x4096, .f32⟩
  | .hbm, ⟨27, _⟩ => ⟨S1x4096, .f32⟩
  | .hbm, ⟨28, _⟩ => ⟨S1024x4096, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S1x4096, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S_, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1024x50257, .f32⟩
  | .hbm, ⟨68, _⟩ => ⟨S1x50257, .f32⟩
  | .hbm, ⟨69, _⟩ => ⟨S1x50257, .f32⟩
  | .hbm, ⟨70, _⟩ => ⟨S1x50257, .f32⟩
  | .hbm, ⟨71, _⟩ => ⟨S1x1x1024, .f32⟩
  | .hbm, ⟨72, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call0_cst : Ref sig .tc := ⟨.hbm, 19, rfl⟩
abbrev main_call0_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x1024 : S_.BroadcastsInDim S1x1024 (![] : Fin 0 → Fin S1x1024.rank)
  shapeCasts_S1x1x1024_S1x1024 : S1x1x1024.ShapeCasts S1x1024
  transposes_S4096x1024_S1024x4096_1_0 : S4096x1024.Transposes [1, 0] S1024x4096
  bcast_S4096_S1x4096_1 : S4096.BroadcastsInDim S1x4096 (![1] : Fin 1 → Fin S1x4096.rank)
  slices_S1x4096_S1x1024_0_0 : S1x4096.Slices ![0, 0] S1x1024
  slices_S1x4096_S1x1024_0_1024 : S1x4096.Slices ![0, 1024] S1x1024
  slices_S1x4096_S1x1024_0_2048 : S1x4096.Slices ![0, 2048] S1x1024
  slices_S1x4096_S1x1024_0_3072 : S1x4096.Slices ![0, 3072] S1x1024
  transposes_S50257x1024_S1024x50257_1_0 : S50257x1024.Transposes [1, 0] S1024x50257
  bcast_S50257_S1x50257_1 : S50257.BroadcastsInDim S1x50257 (![1] : Fin 1 → Fin S1x50257.rank)
  shapeCasts_S1x1024_S1x1x1024 : S1x1024.ShapeCasts S1x1x1024
  gather_S50257x1024_S1x1_S1x1024_1_0_n_n_0_1_11024_wf : GatherDims.WF S50257x1024 S1x1 S1x1024 [1] [0] [] [0] [] 1 ![1, 1024]
  dot_S1x1024_S1024x4096_S1x4096_1_0_0_1_n_n_wf : DotDims.WF S1x1024 S1024x4096 S1x4096 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x1024_S1024x4096_S1x4096_1_0_0_1_n_n : DotDims S1x1024 S1024x4096 S1x4096 where
  lhsContracting := [1]
  rhsContracting := [0]
  lhsNonContracting := [0]
  rhsNonContracting := [1]
  lhsBatch := []
  rhsBatch := []
  wf := dot_S1x1024_S1024x4096_S1x4096_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.K.Reg0.lean ====
import proofs.«427548_j6846177870457_3_alg».proof.Proof.Gen.Kernel.Launch
import proofs.«427548_j6846177870457_3_alg».proof.Proof.Gen.Kernel.Skeleton
import proofs.«427548_j6846177870457_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The gate kernel (first pallas_call): what one grid point computes, and the pipeline's proof data

Point `q` of four stages the embedded row and the hidden state whole, the `q`-th 1024-row slabs of the two
weight matrices and the `q`-th 1024-column pieces of the two biases, and stores one 1024-column piece of the
gate pre-activations: the two row-by-slab products added, then the two bias pieces. -/

-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body reads and writes through. -/
abbrev rRow : Rect S1x1024 := Rect.unit (s := S1x1024) ![0, 0] S1x1024.size inb_S1x1024_S1x1024_0_0
abbrev rSlab : Rect S1024x1024 := Rect.unit (s := S1024x1024) ![0, 0] S1024x1024.size inb_S1024x1024_S1024x1024_0_0

/-- What the body leaves in the output's staging buffer, from the six input blocks: its one whole store. -/
def out0_6 (x0 x1 : Vec F S1x1024 .f32) (x2 x3 : Vec F S1024x1024 .f32) (x4 x5 : Vec F S1x1024 .f32) : Vec F S1x1024 .f32 :=
  View.canon [⟨rRow, k0_pay1 (View.ld x0 rRow) (View.ld x1 rRow) (View.ld x2 rSlab) (View.ld x3 rSlab) (View.ld x4 rRow) (View.ld x5 rRow)⟩]

/-- The store covers the buffer. -/
theorem cover0_6 (p0 : Vec F S1x1024 .f32) (y : S1x1024.Idx) :
    ∃ pc ∈ ([⟨rRow, p0⟩] : List (View.Piece (Elt F) S1x1024 .f32)), y ∈ pc.1.set :=
  View.cover_of_tiled [⟨rRow, p0⟩] S1x1024.size (by rfl) y

set_option maxHeartbeats 1000000 in
/-- The body on whole staging memrefs: the inputs' at contents `x0 … x5`, the output's at anything, runs to the
    inputs' unchanged and the output's at `out0_6` of them. -/
theorem sound_kernel0 (c : Dev nD) (E : Set ℕ) (i : grid0.Coords)
    (a1 : Memref sig .tc .vmem S1x1024 .f32) (h1 : a1.IsWhole) (a2 : Memref sig .tc .vmem S1x1024 .f32) (h2 : a2.IsWhole)
    (a3 : Memref sig .tc .vmem S1024x1024 .f32) (h3 : a3.IsWhole) (a4 : Memref sig .tc .vmem S1024x1024 .f32) (h4 : a4.IsWhole)
    (a5 : Memref sig .tc .vmem S1x1024 .f32) (h5 : a5.IsWhole) (a6 : Memref sig .tc .vmem S1x1024 .f32) (h6 : a6.IsWhole)
    (a7 : Memref sig .tc .vmem S1x1024 .f32) (h7 : a7.IsWhole)
    (x0 x1 : Vec F S1x1024 .f32) (x2 x3 : Vec F S1024x1024 .f32) (x4 x5 : Vec F S1x1024 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (out0_6 x0 x1 x2 x3 x4 x5)) -∗ K ⟨⟩))
      ⊢ wp frame (wpE (defs₀ (F := F)) Variants.none c none) E (cc0__lstm_kernel i a1 h1 a2 h2 a3 h3 a4 h4 a5 h5 a6 h6 a7 h7) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_6 _)

/-- The proof data of the first pipeline on core `c`: the arrays as the region finds them; after the body each
    input's buffer at its block and the output's at `out0_6` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t := by
  -- the row is fetched once and its block index never moves: unfetched, the buffer still holds the block
  have hkeep : ∀ t, (cfg0.win 0).cut (cfg0.grid.coords t) ((dat0 V c).after 0 t) = (dat0 V c).blockOf 0 t := fun t => by
    rw [after0_0]; unfold Dat.blockOf iblk0; rw [A_eq0]
  refine ((dat0 V c).before_in_eq_fetched 0 rfl (fun _ => rfl) (fun _ _ _ => rfl) hkeep t d).trans ?_
  unfold Dat.fetched Dat.blockOf iblk0; rw [A_eq0]; rfl
theorem before0_1 (c : Dev nD) (t : Fin cfg0.N) (d) : (dat0 V c).before 1 t d = iblk0 V c 1 t := by
  have hkeep : ∀ t, (cfg0.win 1).cut (cfg0.grid.coords t) ((dat0 V c).after 1 t) = (dat0 V c).blockOf 1 t := fun t => by
    rw [after0_1]; unfold Dat.blockOf iblk0; rw [A_eq0]
  refine ((dat0 V c).before_in_eq_fetched 1 rfl (fun _ => rfl) (fun _ _ _ => rfl) hkeep t d).trans ?_
  unfold Dat.fetched Dat.blockOf iblk0; rw [A_eq0]; rfl
-- the slabs and the bias pieces are fetched at every point: the buffer holds what the fetch there put in it
theorem before0_2 (c : Dev nD) (t : Fin cfg0.N) (d) : (dat0 V c).before 2 t d = iblk0 V c 2 t := by
  unfold Dat.before; rw [if_pos (fetch0_2 t)]
  unfold Dat.fetched Dat.blockOf iblk0; rw [A_eq0]; rfl
theorem before0_3 (c : Dev nD) (t : Fin cfg0.N) (d) : (dat0 V c).before 3 t d = iblk0 V c 3 t := by
  unfold Dat.before; rw [if_pos (fetch0_3 t)]
  unfold Dat.fetched Dat.blockOf iblk0; rw [A_eq0]; rfl
theorem before0_4 (c : Dev nD) (t : Fin cfg0.N) (d) : (dat0 V c).before 4 t d = iblk0 V c 4 t := by
  unfold Dat.before; rw [if_pos (fetch0_4 t)]
  unfold Dat.fetched Dat.blockOf iblk0; rw [A_eq0]; rfl
theorem before0_5 (c : Dev nD) (t : Fin cfg0.N) (d) : (dat0 V c).before 5 t d = iblk0 V c 5 t := by
  unfold Dat.before; rw [if_pos (fetch0_5 t)]
  unfold Dat.fetched Dat.blockOf iblk0; rw [A_eq0]; rfl

/-- What the body is handed at point `t`: the invariant, what the core owes, and each window's current staging
    buffer at what it then holds, the seven windows in order; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it hands back: the same at the next position, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the six input buffers hold their blocks, so the body's triple applies with the output's
    buffer at whatever it holds; the invariant and what the core owes do not depend on the position and pass
    through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«427548_j6846177870457_3_alg».proof.Proof.Gen.Kernel.Launch
import proofs.«427548_j6846177870457_3_alg».proof.Proof.Gen.Kernel.Skeleton
import proofs.«427548_j6846177870457_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The projection kernel (second pallas_call): what one grid point computes, and the pipeline's proof data

Point `i` of seventeen stages the new hidden state whole, rows 3072·i … of the output weight matrix and columns
3072·i … of the output bias, and stores the row-by-slab product plus the bias piece into columns 3072·i … of the
logits. The seventeenth block overhangs the arrays (17 · 3072 > 50257): its transfers are cut at the arrays' end,
the staging rows past the end hold words nothing names, and only the part inside the array is written back. -/

-- the buffer contents when the region is entered
variable (V : (c : Dev nD) → (b : Ref sig .tc) → Buf (Elt F) ((c : Thread nD τ).loc b))

/-- Window `w`'s block at point `t` — its part inside the array — read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body reads and writes through. -/
abbrev rHid : Rect S1x1024 := Rect.unit (s := S1x1024) ![0, 0] S1x1024.size inb_S1x1024_S1x1024_0_0
abbrev rWout : Rect S3072x1024 := Rect.unit (s := S3072x1024) ![0, 0] S3072x1024.size inb_S3072x1024_S3072x1024_0_0
abbrev rLog : Rect S1x3072 := Rect.unit (s := S1x3072) ![0, 0] S1x3072.size inb_S1x3072_S1x3072_0_0

/-- What the body leaves in the output's staging buffer, from the three input buffers' contents: its one whole store. -/
def out1_3 (x0 : Vec F S1x1024 .f32) (x1 : Vec F S3072x1024 .f32) (x2 : Vec F S1x3072 .f32) : Vec F S1x3072 .f32 :=
  View.canon [⟨rLog, k1_pay1 (View.ld x0 rHid) (View.ld x1 rWout) (View.ld x2 rLog)⟩]

/-- The store covers the buffer. -/
theorem cover1_3 (p0 : Vec F S1x3072 .f32) (y : S1x3072.Idx) :
    ∃ pc ∈ ([⟨rLog, p0⟩] : List (View.Piece (Elt F) S1x3072 .f32)), y ∈ pc.1.set :=
  View.cover_of_tiled [⟨rLog, p0⟩] S1x3072.size (by rfl) y

set_option maxHeartbeats 1000000 in
/-- The body on whole staging memrefs: the inputs' at contents `x0 x1 x2`, the output's at anything, runs to the
    inputs' unchanged and the output's at `out1_3` of them. -/
theorem sound_kernel1 (c : Dev nD) (E : Set ℕ) (i : grid1.Coords)
    (a1 : Memref sig .tc .vmem S1x1024 .f32) (h1 : a1.IsWhole) (a2 : Memref sig .tc .vmem S3072x1024 .f32) (h2 : a2.IsWhole)
    (a3 : Memref sig .tc .vmem S1x3072 .f32) (h3 : a3.IsWhole) (a4 : Memref sig .tc .vmem S1x3072 .f32) (h4 : a4.IsWhole)
    (x0 : Vec F S1x1024 .f32) (x1 : Vec F S3072x1024 .f32) (x2 : Vec F S1x3072 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out1_3 x0 x1 x2)) -∗ K ⟨⟩))
      ⊢ wp frame (wpE (defs₀ (F := F)) Variants.none c none) E (cc1__out_proj_kernel i a1 h1 a2 h2 a3 h3 a4 h4) K := by
  -- four whole loads (the last, of the output's buffer, reads a value nothing uses) and one whole store: the inputs'
  -- buffers are read and left alone, and the output's ends at the one store's payload laid over whatever it held,
  -- which, the store covering the buffer, reads as `out1_3` of the inputs' contents
  simp only [cc1__out_proj_kernel_eq_skeleton]; unfold cc1__out_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The weight block and the bias block at point `t` filled out to the staging buffer's size with the zero word
    past the array's end (the filler is never read back: only the part inside the array is stated or moved). -/
def wfill (c : Dev nD) (t : Fin cfg1.N) : Vec F S3072x1024 .f32 :=
  win1_1.fill (grid1.coords t) (fun _ => Scalar.ofBits .f32 0#32) (iblk1 V c 1 t)
def bfill (c : Dev nD) (t : Fin cfg1.N) : Vec F S1x3072 .f32 :=
  win1_2.fill (grid1.coords t) (fun _ => Scalar.ofBits .f32 0#32) (iblk1 V c 2 t)

/-- The proof data of the second pipeline on core `c`: the arrays as the region finds them; after the body the
    hidden state's buffer at its block, the weight's and the bias's at their blocks (zero-filled past the array's
    end) and the output's at `out1_3` of those; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => wfill V c t
    | ⟨2, _⟩ => bfill V c t
    | ⟨3, _⟩ => out1_3 (iblk1 V c 0 t) (wfill V c t) (bfill V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = wfill V c t := by dsimp only [dat1]
theorem after1_2 (c : Dev nD) (t : Fin cfg1.N) : (dat1 V c).after 2 t = bfill V c t := by dsimp only [dat1]
theorem after1_3 (c : Dev nD) (t : Fin cfg1.N) : (dat1 V c).after 3 t = out1_3 (iblk1 V c 0 t) (wfill V c t) (bfill V c t) := by dsimp only [dat1]

/-- The hidden state's buffer holds its block at every point (fetched at the first only, never moved). -/
theorem before1_0 (c : Dev nD) (t : Fin cfg1.N) (d) : (dat1 V c).before 0 t d = iblk1 V c 0 t :=
  -- unfetched, the block index has not moved (the index map is constant), the body leaves the block in place, and
  -- the window is uncut: what a fetch would put there is the block
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
/-- The weight's and the bias's buffers are fetched at every point: the block on the part inside the array, what
    was there elsewhere. -/
theorem before1_1 (c : Dev nD) (t : Fin cfg1.N) (d) : (dat1 V c).before 1 t d = win1_1.fill (grid1.coords t) d (iblk1 V c 1 t) := by
  unfold Dat.before; rw [if_pos (fetch1_1 t)]
  unfold Dat.fetched Dat.blockOf iblk1; rw [A_eq1]; try rfl
theorem before1_2 (c : Dev nD) (t : Fin cfg1.N) (d) : (dat1 V c).before 2 t d = win1_2.fill (grid1.coords t) d (iblk1 V c 2 t) := by
  unfold Dat.before; rw [if_pos (fetch1_2 t)]
  unfold Dat.fetched Dat.blockOf iblk1; rw [A_eq1]; try rfl

/-- The mask that forgets the output window (for a claim that does not read the logits). -/
abbrev fgtOut : Fin cfg1.W → Bool := fun | 0 => false | 1 => false | 2 => false | 3 => true | ⟨_ + 4, h⟩ => absurd h (Nat.not_lt.2 (Nat.le_add_left _ _))

/-- The body obligation with the output window forgotten: it is handed back at whatever the body stored. -/
theorem body_obligation1_forget (c : Dev nD) :
    BodyObligationLoose (dat1 (F := F) V c) (defs₀ (F := F)) Variants.none () Set.univ fgtOut := fun t => by
  rw [bigSep_W1, bigSep_W1]
  -- no point is idle; the hidden state's window is stated whole, the weight's and the bias's on the part inside the
  -- array, the output's not at all; the invariant and what is owed are the same at both positions
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%X3, H3⟩⟩
  rw [before1_0 V c t d0, before1_1 V c t d1, before1_2 V c t d2, after1_0 V c t, after1_1 V c t, after1_2 V c t]
  iapply (sound_kernel1 (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (iblk1 V c 0 t) (win1_1.fill (grid1.coords t) d1 (iblk1 V c 1 t)) (win1_2.fill (grid1.coords t) d2 (iblk1 V c 2 t)) _)
  isplitl [H0]; · iexact H0
  isplitl [H1]; · iexact H1
  isplitl [H2]; · iexact H2
  isplitl [H3]; · iexists X3; iexact H3
  iintro ⟨H0, H1, H2, H3⟩
  isplitl [HΦ]; · iexact HΦ
  isplitl [Ho]; · iexact Ho
  isplitl [H0]; · iexact H0
  -- the weight's and the bias's buffers still hold their blocks filled out with the same `d`: on the part inside the
  -- array that is the zero-filled block's part
  have hw : win1_1.cut (grid1.coords t) (wfill V c t) = iblk1 V c 1 t := win1_1.cut_fill _ _ _
  have hb : win1_2.cut (grid1.coords t) (bfill V c t) = iblk1 V c 2 t := win1_2.cut_fill _ _ _
  isplitl [H1]
  · iexists d1
    change _ ⊢ owns (c : Thread nD τ) (stage1_1 (cfg1.slots t 1)) fullShare (win1_1.fill (grid1.coords t) d1 (win1_1.cut (grid1.coords t) (wfill V c t)))
    rw [hw]; try iexact H1
  isplitl [H2]
  · iexists d2
    change _ ⊢ owns (c : Thread nD τ) (stage1_2 (cfg1.slots t 2)) fullShare (win1_2.fill (grid1.coords t) d2 (win1_2.cut (grid1.coords t) (bfill V c t)))
    rw [hb]; try iexact H2
  · iexists _; iexact H3

/-- LOCALITY of the body's result: the part of the stored block inside the array does not depend on what the
    weight's and the bias's staging buffers hold past the arrays' end. -/
def Local1 : Prop :=
  ∀ (i : grid1.Coords) (x0 : Vec F S1x1024 .f32) (d1 d1' : Vec F S3072x1024 .f32) (b1 : (win1_1.xblock i).Idx → Elt F .f32)
    (d2 d2' : Vec F S1x3072 .f32) (b2 : (win1_2.xblock i).Idx → Elt F .f32),
    win1_3.cut i (out1_3 x0 (win1_1.fill i d1 b1) (win1_2.fill i d2 b2))
      = win1_3.cut i (out1_3 x0 (win1_1.fill i d1' b1) (win1_2.fill i d2' b2))

/-- The body obligation naming the output, where the result is local in that sense. -/
theorem body_obligation1_exact (hloc : Local1 (F := F)) (c : Dev nD) :
    BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩⟩
  rw [before1_0 V c t d0, before1_1 V c t d1, before1_2 V c t d2, after1_0 V c t, after1_1 V c t, after1_2 V c t,
    after1_3 V c t]
  iapply (sound_kernel1 (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (iblk1 V c 0 t) (win1_1.fill (grid1.coords t) d1 (iblk1 V c 1 t)) (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  have hw : win1_1.cut (grid1.coords t) (wfill V c t) = iblk1 V c 1 t := win1_1.cut_fill _ _ _
  have hb : win1_2.cut (grid1.coords t) (bfill V c t) = iblk1 V c 2 t := win1_2.cut_fill _ _ _
  -- the stored block's part inside the array is the same whatever fills the weight's and the bias's buffers past
  -- the arrays' end: the `d`s of the fetches, or the zero word
  have ho : win1_3.cut (grid1.coords t)
        (out1_3 (iblk1 V c 0 t) (win1_1.fill (grid1.coords t) d1 (iblk1 V c 1 t)) (win1_2.fill (grid1.coords t) d2 (iblk1 V c 2 t)))
      = win1_3.cut (grid1.coords t) (out1_3 (iblk1 V c 0 t) (wfill V c t) (bfill V c t)) :=
    hloc (grid1.coords t) (iblk1 V c 0 t) d1 (fun _ => Scalar.ofBits .f32 0#32) (iblk1 V c 1 t)
      d2 (fun _ => Scalar.ofBits .f32 0#32) (iblk1 V c 2 t)
  isplitl [H1]
  · iexists d1
    change _ ⊢ owns (c : Thread nD τ) (stage1_1 (cfg1.slots t 1)) fullShare (win1_1.fill (grid1.coords t) d1 (win1_1.cut (grid1.coords t) (wfill V c t)))
    rw [hw]; try iexact H1
  isplitl [H2]
  · iexists d2
    change _ ⊢ owns (c : Thread nD τ) (stage1_2 (cfg1.slots t 2)) fullShare (win1_2.fill (grid1.coords t) d2 (win1_2.cut (grid1.coords t) (bfill V c t)))
    rw [hb]; try iexact H2
  · -- the output's buffer holds what the body stored: filled out with itself it is itself
    iexists out1_3 (iblk1 V c 0 t) (win1_1.fill (grid1.coords t) d1 (iblk1 V c 1 t)) (win1_2.fill (grid1.coords t) d2 (iblk1 V c 2 t))
    change _ ⊢ owns (c : Thread nD τ) (stage1_3 (cfg1.slots t 3)) fullShare
      (win1_3.fill (grid1.coords t)
        (out1_3 (iblk1 V c 0 t) (win1_1.fill (grid1.coords t) d1 (iblk1 V c 1 t)) (win1_2.fill (grid1.coords t) d2 (iblk1 V c 2 t)))
        (win1_3.cut (grid1.coords t) (out1_3 (iblk1 V c 0 t) (wfill V c t) (bfill V c t))))
    rw [win1_3.fill_congr_cut (grid1.coords t) ho]; try iexact H3

end Cert.Kernel.Hand

end
-- ==== Proof.K.Vals.lean ====
import proofs.«427548_j6846177870457_3_alg».proof.Proof.Gen.Kernel.Launch
import proofs.«427548_j6846177870457_3_alg».proof.Proof.Gen.Kernel.Skeleton
import proofs.«427548_j6846177870457_3_alg».proof.Proof.Gen.Kernel.Points
import proofs.«427548_j6846177870457_3_alg».proof.Proof.K.Reg0
import proofs.«427548_j6846177870457_3_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! # The run of @main: host operations, the gate kernel, host operations, the projection kernel, host operations

The buffer contents at each boundary are a fold from the launch memory. The first kernel's arrays end at what its
write-backs leave (named exactly). Of the second kernel's arrays only a PREDICATE is carried: what each may hold
after every write-back (for its three inputs, what it held; for the logits, whatever the chosen reading of the body
allows), so the last stretch of host operations and the final reading are stated for any such contents. -/

variable (m : (ℓ : Loc nD τ sig) → Buf (Elt F) ℓ)

/-- Core `c`'s buffers at launch. -/
abbrev W0 : Dev nD → Valuation τ sig (Elt F) := fun c b => m ((c : Dev nD), b)
/-- After the first stretch of host operations (the first kernel's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At the first kernel's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second stretch (the second kernel's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b

/-- Contents for the second kernel's four arrays on core `c`. -/
abbrev Arrs1 (c : Dev nD) : Type := (w : Fin cfg1.W) → Buf (Elt F) ((cfg1.win w).arr.view.loc (c : Thread nD τ))

/-- At the second kernel's exit, its arrays at contents `A`: every other buffer as entered. -/
def W4 (c : Dev nD) (A : Arrs1 (F := F) c) : Valuation τ sig (Elt F) := Pipeline.withArrays spec1 c (W3 m c) A
theorem W4_arr (c : Dev nD) (A : Arrs1 (F := F) c) (w : Fin cfg1.W) :
    W4 m c A (Proc.devRef .tc (Pipeline.arrRef spec1 w)) = A w := by
  unfold W4; exact Pipeline.withArrays_arr spec1 launch1.win.arr_inj c _ _ w
theorem W4_of_ne (c : Dev nD) (A : Arrs1 (F := F) c) (b : Ref sig .tc) (hb : ∀ w, Pipeline.arrRef spec1 w ≠ b) :
    W4 m c A (Proc.devRef .tc b) = W3 m c (Proc.devRef .tc b) := by
  unfold W4; exact Pipeline.withArrays_of_ne spec1 c _ _ b hb
abbrev U4 (c : Dev nD) (A : Arrs1 (F := F) c) : (b : Ref sig .tc) → Buf (Elt F) ((c : Thread nD τ).loc b) := fun b => W4 m c A b
/-- After the last stretch. -/
abbrev W5 (c : Dev nD) (A : Arrs1 (F := F) c) : Valuation τ sig (Elt F) := StableHlo.after hostOps2 (W4 m c A)

end Cert.Kernel.Hand

end
-- ==== Proof.K.Run.lean ====
import proofs.«427548_j6846177870457_3_alg».proof.Proof.Gen.Kernel.Launch
import proofs.«427548_j6846177870457_3_alg».proof.Proof.Gen.Kernel.Skeleton
import proofs.«427548_j6846177870457_3_alg».proof.Proof.Gen.Kernel.Points
import proofs.«427548_j6846177870457_3_alg».proof.Proof.K.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! # The run of @main as segments: the two kernels' regions between three stretches of host operations -/

variable (m : (ℓ : Loc nD τ sig) → Buf (Elt F) ℓ)

/-! ## The proof data family and the thread state -/

abbrev adm : (p : Fin 2) → (pcfgs (F := F) p).Adm := fun p => (cfgs p).toPCfg_adm

/-- Every pipeline's proof data, each at its region's entry contents: the first kernel's read as it is, the second's
    with the windows `fgt` marks forgotten. -/
def rdats (fgt : Fin cfg1.W → Bool) : (p : Fin 2) → (c : Dev nD) → RDat τ (Elt F) Unit ℕ (UR sig nD τ) ℕ (Pipeline.pin (pcfgs (F := F)) adm p) c
  | ⟨0, _⟩ => fun c => (dat0 (U1 m) c).toR
  | ⟨1, _⟩ => fun c => (dat1 (U3 m) c).toRForget fgt

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What the second kernel's arrays may hold after every write-back, under the reading `fgt`. -/
def Ends (fgt : Fin cfg1.W → Bool) (c : Dev nD) (A : Arrs1 (F := F) c) : Prop := ∀ w, (rdats m fgt 1 c).ArrAt w cfg1.N (A w)

/-- The thread state after the second kernel: for SOME contents its arrays may end at, every unscoped buffer at the
    boundary's contents. -/
abbrev T4 (fgt : Fin cfg1.W → Bool) (c : Dev nD) : sProp 𝕄 :=
  iprop(∃ A : Arrs1 (F := F) c, ⌜Ends m fgt c A⌝ ∗ StableHlo.held (c : Thread nD τ) (Pipeline.ucRefs τ sig) (W4 m c A) ∗ R c)
abbrev T5 (fgt : Fin cfg1.W → Bool) (c : Dev nD) : sProp 𝕄 :=
  iprop(∃ A : Arrs1 (F := F) c, ⌜Ends m fgt c A⌝ ∗ StableHlo.held (c : Thread nD τ) (Pipeline.ucRefs τ sig) (W5 m c A) ∗ R c)

-- a StableHLO rule stated for any thread unifies at the TensorCore thread only when unification may unfold plain
-- definitions in a metavariable's type
set_option backward.isDefEq.respectTransparency.types false in
/-- The last stretch of host operations, from the buffers at the second kernel's exit whatever its arrays hold. -/
def hseg2 (fgt : Fin cfg1.W → Bool) : Pipeline.HostSeg (Name := ℕ) (U := UR sig nD τ) (pcfgs (F := F)) defs₀ 𝒱₀ L lv where
  prog := StableHlo.seq hostOps2
  pre c := T4 m fgt c
  post c := T5 m fgt c
  run c {β} k K := by
    iintro ⟨Hk, Hbd, ⟨%A, %hA, Hh, HR⟩, -⟩
    have hseq := StableHlo.wp_seq (defs := Pipeline.defs (pcfgs (F := F)) defs₀) (Variants.lift 𝒱₀) none Set.univ c (Pipeline.ucRefs τ sig) k (K := K) hostOps2
      (fun op h => Pipeline.sub_ucRefs op ((List.forall_iff_forall_mem.mp hostOps2_sub) op h))
      (fun op h => (List.forall_iff_forall_mem.mp ops2_fresh) op h) (W4 m c A)
    iapply hseq $$ [Hbd Hh]
    · isplitl [Hbd] <;> iassumption
    iintro ⟨Hbd, Hh⟩
    iapply Hk
    isplitl [Hbd]; · iexact Hbd
    iexists A
    isplitr; · ipureintro; exact hA
    isplitl [Hh] <;> iassumption

/-! ## The regions as segments -/

section Regs

variable (fgt : Fin cfg1.W → Bool)
  (hb1 : ∀ c, BodyObligationLoose (dat1 (F := F) (U3 m) c) (defs₀ (F := F)) Variants.none () Set.univ fgt)

set_option backward.isDefEq.respectTransparency.types false in
/-- The first kernel's region: entered from every unscoped buffer at `W1`, left at `W2`. -/
def reg0 : Pipeline.RDat.RegionSeg (pcfgs (F := F)) adm (rdats m fgt) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.RDat.arrays_of_unscopedBufs (p := 0) (pcfgs (F := F)) adm (rdats m fgt) launch0.win launch0.arr_whole c
      ((dat0 (U1 m) c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (fun p c => match p with | ⟨0, _⟩ => dat0 (U1 m) c | ⟨1, _⟩ => dat1 (U3 m) c) ((dat0 (U1 m) c).share_full fun _ => rfl)
      (U1 m c) (U2 m c) ((dat0 (U1 m) c).arrAt · cfg0.N) (hF0 m c) (hrest0 m c)
    rw [Pipeline.unscopedBufs_held] at hjoin
    have hpost : ((rdats m fgt 0 c).arraysAt (Pipeline.pin (pcfgs (F := F)) adm 0).N : sProp 𝕄)
        ⊢ (dat0 (U1 m) c).arrays ((dat0 (U1 m) c).arrAt · cfg0.N) := (dat0 (U1 m) c).toR_arraysAt_post cfg0.N
    iintro ⟨Ha, HO, HY, Hrest⟩
    ihave Ha' := hpost $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

set_option backward.isDefEq.respectTransparency.types false in
/-- The second kernel's region: entered from every unscoped buffer at `W3`, left with its arrays at SOME contents
    they may hold after every write-back. -/
def reg1 : Pipeline.RDat.RegionSeg (pcfgs (F := F)) adm (rdats m fgt) () defs₀ 𝒱₀ L lv 1 where
  win := launch1.win.to₀
  block_pos := launch1.block_pos
  stage_whole := launch1.stage_whole
  K := PEmpty
  osem k := k.elim
  ho := Pipeline.OwnSemFacts.none _
  hbody c := (hb1 c).toRForget
  hwaits := Pipeline.RDat.hwaits_of_owed_zero _ _ _ _ L lv 1 fun _ _ => rfl
  pre c := iprop(StableHlo.held (c : Thread nD τ) (Pipeline.ucRefs τ sig) (W3 m c) ∗ R c)
  post c := T4 m fgt c
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.RDat.arrays_of_unscopedBufs (p := 1) (pcfgs (F := F)) adm (rdats m fgt) launch1.win launch1.arr_whole c
      ((dat1 (U3 m) c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt 1 c).Φ (Fin.last _) = Pipeline.ΦA spec1 c from rfl]; unfold Pipeline.ΦA
    iintro ⟨Hr, Hp⟩
    isplitl [Hp]; · iexact Hp
    isplitr; · iempintro
    iexact Hr
  hexit c := by
    -- each array at some contents it may hold: gather the four choices into one family
    have hgather : ((rdats m fgt 1 c).arraysAt (Pipeline.pin (pcfgs (F := F)) adm 1).N : sProp 𝕄)
        ⊢ iprop(∃ A : Arrs1 (F := F) c, ⌜Ends m fgt c A⌝ ∗ (rdats m fgt 1 c).arrays A) := by
      unfold Pipeline.RDat.arraysAt
      refine (BI.bigSep_exists_pi Finset.univ _).trans ?_
      iintro ⟨%A, H⟩
      ihave H' := (BI.bigSep_pure_sep Finset.univ _ _) $$ H
      icases H' with ⟨%hA, H'⟩
      iexists A
      isplitr; · ipureintro; exact fun w => hA w (Finset.mem_univ w)
      unfold Pipeline.RDat.arrays
      iexact H'
    iintro ⟨Ha, HO, HY, Hrest⟩
    ihave Ha' := hgather $$ Ha
    icases Ha' with ⟨%A, %hA, Ha'⟩
    have hjoin := Pipeline.unscopedBufs_of_arrays (p := 1) (pcfgs (F := F)) adm (Ix := Unit) (Name := ℕ) (U := UR sig nD τ) (Lvl := ℕ)
      launch1.win launch1.arr_whole c (fun p c => match p with | ⟨0, _⟩ => dat0 (U1 m) c | ⟨1, _⟩ => dat1 (U3 m) c) ((dat1 (U3 m) c).share_full fun _ => rfl)
      (U3 m c) (U4 m c A) A (fun w => (W4_arr m c A w).symm)
      (fun b hb => W4_of_ne m c A b fun w e => hb (Finset.mem_image.mpr ⟨w, Finset.mem_univ _, e⟩))
    rw [Pipeline.unscopedBufs_held] at hjoin
    have hjoin' : iprop((rdats m fgt 1 c).arrays A ∗ Pipeline.unscopedRest (Ix := Unit) (Name := ℕ) (U := UR sig nD τ) (Lvl := ℕ) spec1 c (U3 m c))
        ⊢ (StableHlo.held (c : Thread nD τ) (Pipeline.ucRefs τ sig) (W4 m c A) : sProp 𝕄) := hjoin
    imodintro
    iexists A
    isplitr; · ipureintro; exact hA
    isplitl [Ha' Hrest]
    · iapply hjoin'; isplitl [Ha'] <;> iassumption
    isplitl [HY]; · iexact HY
    unfold Pipeline.RDat.owesAt Pipeline.owesWithin
    icases HO with ⟨%W, -, HO⟩; iexists W; iexact HO

end Regs

/-! ## @main as segments, and the launch -/

section Launch

variable (fgt : Fin cfg1.W → Bool)
  (hb1 : ∀ c, BodyObligationLoose (dat1 (F := F) (U3 m) c) (defs₀ (F := F)) Variants.none () Set.univ fgt)

/-- @main's five segments in order. -/
abbrev segs : List (Pipeline.RDat.Seg (pcfgs (F := F)) adm (rdats m fgt) () defs₀ 𝒱₀ L lv) :=
  [ .host (hseg hostOps0 hostOps0_sub ops0_fresh (W0 m)),
    .region (reg0 m fgt),
    .host (hseg hostOps1 hostOps1_sub ops1_fresh (W2 m)),
    .region (reg1 m fgt hb1),
    .host (hseg2 m fgt) ]

/-- @main is the run of the segments. -/
theorem main_run (c : Dev nD) : main (F := F) c = Pipeline.RDat.Seg.run (segs m fgt hb1) := (main_chain c).trans (by chain_rfl)

/-- The last thread state without what is owed. -/
abbrev Tend (c : Dev nD) : sProp 𝕄 :=
  iprop(∃ A : Arrs1 (F := F) c, ⌜Ends m fgt c A⌝ ∗ StableHlo.held (c : Thread nD τ) (Pipeline.ucRefs τ sig) (W5 m c A) ∗ ∃ r, prngReg c r)

theorem T5_split (c : Dev nD) :
    T5 m fgt c ⊢ iprop(Tend m fgt c ∗ ∃ W, owes (c : Thread nD τ) (0 : CellTallies nD τ sig Unit) W) := by
  iintro ⟨%A, %hA, Hh, Hp, HO⟩
  isplitr [HO]
  · iexists A
    isplitr; · ipureintro; exact hA
    isplitl [Hh]; · iexact Hh
    iexact Hp
  · iexact HO

include hb1

set_option backward.isDefEq.respectTransparency.types false in
/-- THE RUN. At the compiled mesh, from any memory with zero counters, every weakly fair execution of @main
    terminates, nothing faulting, and on every core the final memory holds every unscoped buffer at the last
    boundary's contents, for some contents `A` the second kernel's arrays may end at under the reading `fgt`. -/
theorem run (ρ : Dev nD → PrngReg) : θ_run defs (onTc (τ := τ) (main (F := F))) ⟨m, fun _ => 0, ρ⟩ (fun r => ∀ c : Dev nD,
      ∃ A : Arrs1 (F := F) c, Ends m fgt c A ∧ ∀ b ∈ Pipeline.ucRefs τ sig, r.2.mem (((c : Thread nD τ)).1, b) = W5 m c A b) :=
  Pipeline.RDat.θ_run_regions_kit (pcfgs (F := F)) adm (rdats m fgt) () cellOf_inj emb₁ defs₀ 𝒱₀ L lv m ρ main (segs m fgt hb1)
    (fun c Q => by rw [main_run m fgt hb1 c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m fgt)
    (hch := ⟨fun _ => .rfl, fun _ => .rfl, fun _ => .rfl, fun _ => .rfl, fun _ => .rfl, fun c => T5_split m fgt c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ A : Arrs1 (F := F) c, Ends m fgt c A ∧ ∀ b ∈ Pipeline.ucRefs τ sig, s.mem (((c : Thread nD τ)).1, b) = W5 m c A b)
    (hfin := fun c s' => by
      iintro ⟨⟨%A, %hA, Hh, -⟩, HSI⟩
      unfold StableHlo.held
      ihave Hr := (pointsTo_read_all (Pipeline.ucRefs τ sig) (fun b => (((c : Thread nD τ)).1, b)) (W5 m c A) s') $$ [Hh HSI]
      · isplitl [Hh] <;> iassumption
      icases Hr with ⟨%h, HSI⟩
      imodintro
      isplitr
      · ipureintro; exact ⟨A, hA, h⟩
      · iexact HSI)
    (hQ := fun s h => h)

end Launch

end Cert.Kernel.Hand

end
-- ==== Proof.K.Ends.lean ====
import proofs.«427548_j6846177870457_3_alg».proof.Proof.Gen.Kernel.Launch
import proofs.«427548_j6846177870457_3_alg».proof.Proof.Gen.Kernel.Skeleton
import proofs.«427548_j6846177870457_3_alg».proof.Proof.Gen.Kernel.Points
import proofs.«427548_j6846177870457_3_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! # What the second kernel's arrays end at

An input array is never written: it ends as the region found it. Under a reading that names the output, the logits
array ends at what the exact proof data's write-backs leave. -/

variable (m : (ℓ : Loc nD τ sig) → Buf (Elt F) ℓ) (fgt : Fin cfg1.W → Bool) (c : Dev nD) (A : Arrs1 (F := F) c)

/-- The hidden state's array (the first window, an input) ends as entered. -/
theorem ends_hidden (h : Ends m fgt c A) : A 0 = U3 m c main_v39 := by
  have h0 := h 0
  rw [(rdats m fgt 1 c).ArrAt_in 0 rfl] at h0
  exact h0

/-- The output weights' array (the second window, an input) ends as entered. -/
theorem ends_weights (h : Ends m fgt c A) : A 1 = U3 m c main_arg8 := by
  have h1 := h 1
  rw [(rdats m fgt 1 c).ArrAt_in 1 rfl] at h1
  exact h1

/-- Where the reading names the output window, the logits array ends at the exact data's contents. -/
theorem ends_logits (hf : fgt 3 = false) (h : Ends m fgt c A) : A 3 = (dat1 (U3 m) c).arrAt 3 cfg1.N :=
  ((dat1 (U3 m) c).toRForget_arrAt_iff hf cfg1.N (A 3)).mp (h 3)

end Cert.Kernel.Hand

end
-- ==== Proof.K.Args.lean ====
import proofs.«427548_j6846177870457_3_alg».proof.Proof.K.Vals
import Idealize.ShloMosaic.Lib.StableHlo.Run
import Idealize.ShloMosaic.Lib.Pipeline.Cells

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! # The argument arrays end as launched

A host operation rewrites only its result reference, and no result reference is an argument; a kernel changes only
its output array, and reads an argument either through an input window (which its pipeline leaves as found) or not
at all. So the fold of buffer contents, read at an argument, walks back boundary by boundary to the launch memory. -/

variable (m : (ℓ : Loc nD τ sig) → Buf (Elt F) ℓ) (c : Dev nD)

/-! ## What each stretch of host operations writes -/

/-- The result references of the first stretch, -/
abbrev wr0 : List (Ref sig .tc) :=
  [main_c, main_v0, main_v1, main_c_0, main_v2, main_v3, main_v4, main_v5, main_v6, main_v7, main_v8, main_v9, main_v10]
/-- of the second, -/
abbrev wr1 : List (Ref sig .tc) :=
  [main_v12, main_v13, main_v14, main_cst, main_v15, main_v16, main_cst_1, main_v17, main_v18, main_v19, main_v20, main_v21,
   main_cst_2, main_v22, main_v23, main_cst_3, main_v24, main_v25, main_v26, main_v27, main_v28, main_v29, main_v30, main_cst_4,
   main_v31, main_v32, main_cst_5, main_v33, main_v34, main_v35, main_v36, main_v37, main_v38, main_v39, main_v40]
/-- and of the third. -/
abbrev wr2 : List (Ref sig .tc) := [main_v42, main_v43]

/-- Each operation of a stretch writes its own result reference and nothing else. -/
theorem wr0_sub : (hostOps0 : List (HloOp τ sig (Elt F))).Forall fun op => op.writes ⊆ (wr0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem wr1_sub : (hostOps1 : List (HloOp τ sig (Elt F))).Forall fun op => op.writes ⊆ (wr1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem wr2_sub : (hostOps2 : List (HloOp τ sig (Elt F))).Forall fun op => op.writes ⊆ (wr2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-! ## A reference a stretch does not write keeps its contents across it -/

theorem W1_keep (r : Ref sig .tc) (h : r ∉ wr0) : W1 m c (Proc.devRef .tc r) = W0 m c (Proc.devRef .tc r) :=
  StableHlo.after_of_writes_sub hostOps0 _ wr0_sub h
theorem W3_keep (r : Ref sig .tc) (h : r ∉ wr1) : W3 m c (Proc.devRef .tc r) = W2 m c (Proc.devRef .tc r) :=
  StableHlo.after_of_writes_sub hostOps1 _ wr1_sub h
theorem W5_keep (A : Arrs1 (F := F) c) (r : Ref sig .tc) (h : r ∉ wr2) :
    W5 m c A (Proc.devRef .tc r) = W4 m c A (Proc.devRef .tc r) :=
  StableHlo.after_of_writes_sub hostOps2 _ wr2_sub h

/-- A reference that is no array of either kernel and no result of any stretch holds at the end what it was launched with. -/
theorem W5_through (A : Arrs1 (F := F) c) (r : Ref sig .tc) (h2 : r ∉ wr2) (hs1 : ∀ w, Pipeline.arrRef spec1 w ≠ r)
    (h1 : r ∉ wr1) (hs0 : ∀ w, Pipeline.arrRef spec0 w ≠ r) (h0 : r ∉ wr0) :
    W5 m c A (Proc.devRef .tc r) = W0 m c (Proc.devRef .tc r) :=
  (W5_keep m c A r h2).trans <| (W4_of_ne m c A r hs1).trans <| (W3_keep m c r h1).trans <|
    (W2_of_ne m c r hs0).trans (W1_keep m c r h0)

/-- The two weight matrices are input arrays of the first kernel: its pipeline leaves an input array as it found it. -/
theorem W2_arg4 : W2 m c (Proc.devRef .tc main_arg4) = W1 m c (Proc.devRef .tc main_arg4) :=
  (W2_arr m c 2).trans (((dat0 (U1 m) c).arrAt_in 2 rfl _).trans (A_eq0 (U1 m) c 2))
theorem W2_arg5 : W2 m c (Proc.devRef .tc main_arg5) = W1 m c (Proc.devRef .tc main_arg5) :=
  (W2_arr m c 3).trans (((dat0 (U1 m) c).arrAt_in 3 rfl _).trans (A_eq0 (U1 m) c 3))

/-- No host operation and no kernel writes an argument: each ends as launched (the output weights are the second
    kernel's second array, an input: `hA1`). -/
theorem W5_args (A : Arrs1 (F := F) c) (hA1 : A 1 = U3 m c main_arg8) :
    W5 m c A (Proc.devRef .tc main_arg0) = m ((c : Thread nD τ).loc main_arg0)
    ∧ W5 m c A (Proc.devRef .tc main_arg1) = m ((c : Thread nD τ).loc main_arg1)
    ∧ W5 m c A (Proc.devRef .tc main_arg2) = m ((c : Thread nD τ).loc main_arg2)
    ∧ W5 m c A (Proc.devRef .tc main_arg3) = m ((c : Thread nD τ).loc main_arg3)
    ∧ W5 m c A (Proc.devRef .tc main_arg4) = m ((c : Thread nD τ).loc main_arg4)
    ∧ W5 m c A (Proc.devRef .tc main_arg5) = m ((c : Thread nD τ).loc main_arg5)
    ∧ W5 m c A (Proc.devRef .tc main_arg6) = m ((c : Thread nD τ).loc main_arg6)
    ∧ W5 m c A (Proc.devRef .tc main_arg7) = m ((c : Thread nD τ).loc main_arg7)
    ∧ W5 m c A (Proc.devRef .tc main_arg8) = m ((c : Thread nD τ).loc main_arg8)
    ∧ W5 m c A (Proc.devRef .tc main_arg9) = m ((c : Thread nD τ).loc main_arg9) := by
  refine ⟨?_, ?_, ?_, ?_, ?_, ?_, ?_, ?_, ?_, ?_⟩
  · exact W5_through m c A main_arg0 (by decide) (by decide) (by decide) (by decide) (by decide)
  · exact W5_through m c A main_arg1 (by decide) (by decide) (by decide) (by decide) (by decide)
  · exact W5_through m c A main_arg2 (by decide) (by decide) (by decide) (by decide) (by decide)
  · exact W5_through m c A main_arg3 (by decide) (by decide) (by decide) (by decide) (by decide)
  · -- read by the first kernel through its third window
    exact (W5_keep m c A main_arg4 (by decide)).trans <| (W4_of_ne m c A main_arg4 (by decide)).trans <|
      (W3_keep m c main_arg4 (by decide)).trans <| (W2_arg4 m c).trans (W1_keep m c main_arg4 (by decide))
  · -- and through its fourth
    exact (W5_keep m c A main_arg5 (by decide)).trans <| (W4_of_ne m c A main_arg5 (by decide)).trans <|
      (W3_keep m c main_arg5 (by decide)).trans <| (W2_arg5 m c).trans (W1_keep m c main_arg5 (by decide))
  · exact W5_through m c A main_arg6 (by decide) (by decide) (by decide) (by decide) (by decide)
  · exact W5_through m c A main_arg7 (by decide) (by decide) (by decide) (by decide) (by decide)
  · -- read by the second kernel through its second window
    exact (W5_keep m c A main_arg8 (by decide)).trans <| (W4_arr m c A 1).trans <| hA1.trans <|
      (W3_keep m c main_arg8 (by decide)).trans <| (W2_of_ne m c main_arg8 (by decide)).trans (W1_keep m c main_arg8 (by decide))
  · exact W5_through m c A main_arg9 (by decide) (by decide) (by decide) (by decide) (by decide)

end Cert.Kernel.Hand

end
-- ==== Proof.K.Frame.lean ====
import proofs.«427548_j6846177870457_3_alg».proof.Proof.Gen.Kernel.Launch
import proofs.«427548_j6846177870457_3_alg».proof.Proof.Gen.Kernel.Skeleton
import proofs.«427548_j6846177870457_3_alg».proof.Proof.Gen.Kernel.Points
import proofs.«427548_j6846177870457_3_alg».proof.Proof.K.Ends
import proofs.«427548_j6846177870457_3_alg».proof.Proof.K.Args
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! # The frame: @main runs to the end, nothing faults, and every argument array ends as launched

Read off the run: whatever the second kernel's arrays end at, no host operation and no kernel writes an argument
(the output weights, an input of the second kernel, end as entered). -/

variable (m : (ℓ : Loc nD τ sig) → Buf (Elt F) ℓ)

theorem frame_of (fgt : Fin cfg1.W → Bool)
    (hb1 : ∀ c, BodyObligationLoose (dat1 (F := F) (U3 m) c) (defs₀ (F := F)) Variants.none () Set.univ fgt)
    (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c => by
    obtain ⟨A, hA, hmem⟩ := h c
    obtain ⟨h0, h1, h2, h3, h4, h5, h6, h7, h8, h9⟩ := W5_args m c A (ends_weights m fgt c A hA)
    exact ⟨(hmem _ (mem_uc main_arg0 (by decide))).trans h0,
      (hmem _ (mem_uc main_arg1 (by decide))).trans h1,
      (hmem _ (mem_uc main_arg2 (by decide))).trans h2,
      (hmem _ (mem_uc main_arg3 (by decide))).trans h3,
      (hmem _ (mem_uc main_arg4 (by decide))).trans h4,
      (hmem _ (mem_uc main_arg5 (by decide))).trans h5,
      (hmem _ (mem_uc main_arg6 (by decide))).trans h6,
      (hmem _ (mem_uc main_arg7 (by decide))).trans h7,
      (hmem _ (mem_uc main_arg8 (by decide))).trans h8,
      (hmem _ (mem_uc main_arg9 (by decide))).trans h9⟩)
    (run m fgt hb1 ρ)

end Cert.Kernel.Hand

end
-- ==== Proof.KI.Reg0.lean ====
import proofs.«427548_j6846177870457_3_alg».proof.Proof.Gen.KernelIdeal.Launch
import proofs.«427548_j6846177870457_3_alg».proof.Proof.Gen.KernelIdeal.Skeleton
import proofs.«427548_j6846177870457_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The gate kernel (first pallas_call): what one grid point computes, and the pipeline's proof data

Point `q` of four stages the embedded row and the hidden state whole, the `q`-th 1024-row slabs of the two
weight matrices and the `q`-th 1024-column pieces of the two biases, and stores one 1024-column piece of the
gate pre-activations: the two row-by-slab products added, then the two bias pieces. -/

-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body reads and writes through. -/
abbrev rRow : Rect S1x1024 := Rect.unit (s := S1x1024) ![0, 0] S1x1024.size inb_S1x1024_S1x1024_0_0
abbrev rSlab : Rect S1024x1024 := Rect.unit (s := S1024x1024) ![0, 0] S1024x1024.size inb_S1024x1024_S1024x1024_0_0

/-- What the body leaves in the output's staging buffer, from the six input blocks: its one whole store. -/
def out0_6 (x0 x1 : Vec F S1x1024 .f32) (x2 x3 : Vec F S1024x1024 .f32) (x4 x5 : Vec F S1x1024 .f32) : Vec F S1x1024 .f32 :=
  View.canon [⟨rRow, k0_pay1 (View.ld x0 rRow) (View.ld x1 rRow) (View.ld x2 rSlab) (View.ld x3 rSlab) (View.ld x4 rRow) (View.ld x5 rRow)⟩]

/-- The store covers the buffer. -/
theorem cover0_6 (p0 : Vec F S1x1024 .f32) (y : S1x1024.Idx) :
    ∃ pc ∈ ([⟨rRow, p0⟩] : List (View.Piece (Elt F) S1x1024 .f32)), y ∈ pc.1.set :=
  View.cover_of_tiled [⟨rRow, p0⟩] S1x1024.size (by rfl) y

set_option maxHeartbeats 1000000 in
/-- The body on whole staging memrefs: the inputs' at contents `x0 … x5`, the output's at anything, runs to the
    inputs' unchanged and the output's at `out0_6` of them. -/
theorem sound_kernel0 (c : Dev nD) (E : Set ℕ) (i : grid0.Coords)
    (a1 : Memref sig .tc .vmem S1x1024 .f32) (h1 : a1.IsWhole) (a2 : Memref sig .tc .vmem S1x1024 .f32) (h2 : a2.IsWhole)
    (a3 : Memref sig .tc .vmem S1024x1024 .f32) (h3 : a3.IsWhole) (a4 : Memref sig .tc .vmem S1024x1024 .f32) (h4 : a4.IsWhole)
    (a5 : Memref sig .tc .vmem S1x1024 .f32) (h5 : a5.IsWhole) (a6 : Memref sig .tc .vmem S1x1024 .f32) (h6 : a6.IsWhole)
    (a7 : Memref sig .tc .vmem S1x1024 .f32) (h7 : a7.IsWhole)
    (x0 x1 : Vec F S1x1024 .f32) (x2 x3 : Vec F S1024x1024 .f32) (x4 x5 : Vec F S1x1024 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (out0_6 x0 x1 x2 x3 x4 x5)) -∗ K ⟨⟩))
      ⊢ wp frame (wpE (defs₀ (F := F)) Variants.none c none) E (cc0__lstm_kernel i a1 h1 a2 h2 a3 h3 a4 h4 a5 h5 a6 h6 a7 h7) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_6 _)

/-- The proof data of the first pipeline on core `c`: the arrays as the region finds them; after the body each
    input's buffer at its block and the output's at `out0_6` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t := by
  -- the row is fetched once and its block index never moves: unfetched, the buffer still holds the block
  have hkeep : ∀ t, (cfg0.win 0).cut (cfg0.grid.coords t) ((dat0 V c).after 0 t) = (dat0 V c).blockOf 0 t := fun t => by
    rw [after0_0]; unfold Dat.blockOf iblk0; rw [A_eq0]
  refine ((dat0 V c).before_in_eq_fetched 0 rfl (fun _ => rfl) (fun _ _ _ => rfl) hkeep t d).trans ?_
  unfold Dat.fetched Dat.blockOf iblk0; rw [A_eq0]; rfl
theorem before0_1 (c : Dev nD) (t : Fin cfg0.N) (d) : (dat0 V c).before 1 t d = iblk0 V c 1 t := by
  have hkeep : ∀ t, (cfg0.win 1).cut (cfg0.grid.coords t) ((dat0 V c).after 1 t) = (dat0 V c).blockOf 1 t := fun t => by
    rw [after0_1]; unfold Dat.blockOf iblk0; rw [A_eq0]
  refine ((dat0 V c).before_in_eq_fetched 1 rfl (fun _ => rfl) (fun _ _ _ => rfl) hkeep t d).trans ?_
  unfold Dat.fetched Dat.blockOf iblk0; rw [A_eq0]; rfl
-- the slabs and the bias pieces are fetched at every point: the buffer holds what the fetch there put in it
theorem before0_2 (c : Dev nD) (t : Fin cfg0.N) (d) : (dat0 V c).before 2 t d = iblk0 V c 2 t := by
  unfold Dat.before; rw [if_pos (fetch0_2 t)]
  unfold Dat.fetched Dat.blockOf iblk0; rw [A_eq0]; rfl
theorem before0_3 (c : Dev nD) (t : Fin cfg0.N) (d) : (dat0 V c).before 3 t d = iblk0 V c 3 t := by
  unfold Dat.before; rw [if_pos (fetch0_3 t)]
  unfold Dat.fetched Dat.blockOf iblk0; rw [A_eq0]; rfl
theorem before0_4 (c : Dev nD) (t : Fin cfg0.N) (d) : (dat0 V c).before 4 t d = iblk0 V c 4 t := by
  unfold Dat.before; rw [if_pos (fetch0_4 t)]
  unfold Dat.fetched Dat.blockOf iblk0; rw [A_eq0]; rfl
theorem before0_5 (c : Dev nD) (t : Fin cfg0.N) (d) : (dat0 V c).before 5 t d = iblk0 V c 5 t := by
  unfold Dat.before; rw [if_pos (fetch0_5 t)]
  unfold Dat.fetched Dat.blockOf iblk0; rw [A_eq0]; rfl

/-- What the body is handed at point `t`: the invariant, what the core owes, and each window's current staging
    buffer at what it then holds, the seven windows in order; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it hands back: the same at the next position, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the six input buffers hold their blocks, so the body's triple applies with the output's
    buffer at whatever it holds; the invariant and what the core owes do not depend on the position and pass
    through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«427548_j6846177870457_3_alg».proof.Proof.Gen.KernelIdeal.Launch
import proofs.«427548_j6846177870457_3_alg».proof.Proof.Gen.KernelIdeal.Skeleton
import proofs.«427548_j6846177870457_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The projection kernel (second pallas_call): what one grid point computes, and the pipeline's proof data

Point `i` of seventeen stages the new hidden state whole, rows 3072·i … of the output weight matrix and columns
3072·i … of the output bias, and stores the row-by-slab product plus the bias piece into columns 3072·i … of the
logits. The seventeenth block overhangs the arrays (17 · 3072 > 50257): its transfers are cut at the arrays' end,
the staging rows past the end hold words nothing names, and only the part inside the array is written back. -/

-- the buffer contents when the region is entered
variable (V : (c : Dev nD) → (b : Ref sig .tc) → Buf (Elt F) ((c : Thread nD τ).loc b))

/-- Window `w`'s block at point `t` — its part inside the array — read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body reads and writes through. -/
abbrev rHid : Rect S1x1024 := Rect.unit (s := S1x1024) ![0, 0] S1x1024.size inb_S1x1024_S1x1024_0_0
abbrev rWout : Rect S3072x1024 := Rect.unit (s := S3072x1024) ![0, 0] S3072x1024.size inb_S3072x1024_S3072x1024_0_0
abbrev rLog : Rect S1x3072 := Rect.unit (s := S1x3072) ![0, 0] S1x3072.size inb_S1x3072_S1x3072_0_0

/-- What the body leaves in the output's staging buffer, from the three input buffers' contents: its one whole store. -/
def out1_3 (x0 : Vec F S1x1024 .f32) (x1 : Vec F S3072x1024 .f32) (x2 : Vec F S1x3072 .f32) : Vec F S1x3072 .f32 :=
  View.canon [⟨rLog, k1_pay1 (View.ld x0 rHid) (View.ld x1 rWout) (View.ld x2 rLog)⟩]

/-- The store covers the buffer. -/
theorem cover1_3 (p0 : Vec F S1x3072 .f32) (y : S1x3072.Idx) :
    ∃ pc ∈ ([⟨rLog, p0⟩] : List (View.Piece (Elt F) S1x3072 .f32)), y ∈ pc.1.set :=
  View.cover_of_tiled [⟨rLog, p0⟩] S1x3072.size (by rfl) y

set_option maxHeartbeats 1000000 in
/-- The body on whole staging memrefs: the inputs' at contents `x0 x1 x2`, the output's at anything, runs to the
    inputs' unchanged and the output's at `out1_3` of them. -/
theorem sound_kernel1 (c : Dev nD) (E : Set ℕ) (i : grid1.Coords)
    (a1 : Memref sig .tc .vmem S1x1024 .f32) (h1 : a1.IsWhole) (a2 : Memref sig .tc .vmem S3072x1024 .f32) (h2 : a2.IsWhole)
    (a3 : Memref sig .tc .vmem S1x3072 .f32) (h3 : a3.IsWhole) (a4 : Memref sig .tc .vmem S1x3072 .f32) (h4 : a4.IsWhole)
    (x0 : Vec F S1x1024 .f32) (x1 : Vec F S3072x1024 .f32) (x2 : Vec F S1x3072 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out1_3 x0 x1 x2)) -∗ K ⟨⟩))
      ⊢ wp frame (wpE (defs₀ (F := F)) Variants.none c none) E (cc1__out_proj_kernel i a1 h1 a2 h2 a3 h3 a4 h4) K := by
  -- four whole loads (the last, of the output's buffer, reads a value nothing uses) and one whole store: the inputs'
  -- buffers are read and left alone, and the output's ends at the one store's payload laid over whatever it held,
  -- which, the store covering the buffer, reads as `out1_3` of the inputs' contents
  simp only [cc1__out_proj_kernel_eq_skeleton]; unfold cc1__out_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The weight block and the bias block at point `t` filled out to the staging buffer's size with the zero word
    past the array's end (the filler is never read back: only the part inside the array is stated or moved). -/
def wfill (c : Dev nD) (t : Fin cfg1.N) : Vec F S3072x1024 .f32 :=
  win1_1.fill (grid1.coords t) (fun _ => Scalar.ofBits .f32 0#32) (iblk1 V c 1 t)
def bfill (c : Dev nD) (t : Fin cfg1.N) : Vec F S1x3072 .f32 :=
  win1_2.fill (grid1.coords t) (fun _ => Scalar.ofBits .f32 0#32) (iblk1 V c 2 t)

/-- The proof data of the second pipeline on core `c`: the arrays as the region finds them; after the body the
    hidden state's buffer at its block, the weight's and the bias's at their blocks (zero-filled past the array's
    end) and the output's at `out1_3` of those; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => wfill V c t
    | ⟨2, _⟩ => bfill V c t
    | ⟨3, _⟩ => out1_3 (iblk1 V c 0 t) (wfill V c t) (bfill V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = wfill V c t := by dsimp only [dat1]
theorem after1_2 (c : Dev nD) (t : Fin cfg1.N) : (dat1 V c).after 2 t = bfill V c t := by dsimp only [dat1]
theorem after1_3 (c : Dev nD) (t : Fin cfg1.N) : (dat1 V c).after 3 t = out1_3 (iblk1 V c 0 t) (wfill V c t) (bfill V c t) := by dsimp only [dat1]

/-- The hidden state's buffer holds its block at every point (fetched at the first only, never moved). -/
theorem before1_0 (c : Dev nD) (t : Fin cfg1.N) (d) : (dat1 V c).before 0 t d = iblk1 V c 0 t :=
  -- unfetched, the block index has not moved (the index map is constant), the body leaves the block in place, and
  -- the window is uncut: what a fetch would put there is the block
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
/-- The weight's and the bias's buffers are fetched at every point: the block on the part inside the array, what
    was there elsewhere. -/
theorem before1_1 (c : Dev nD) (t : Fin cfg1.N) (d) : (dat1 V c).before 1 t d = win1_1.fill (grid1.coords t) d (iblk1 V c 1 t) := by
  unfold Dat.before; rw [if_pos (fetch1_1 t)]
  unfold Dat.fetched Dat.blockOf iblk1; rw [A_eq1]; try rfl
theorem before1_2 (c : Dev nD) (t : Fin cfg1.N) (d) : (dat1 V c).before 2 t d = win1_2.fill (grid1.coords t) d (iblk1 V c 2 t) := by
  unfold Dat.before; rw [if_pos (fetch1_2 t)]
  unfold Dat.fetched Dat.blockOf iblk1; rw [A_eq1]; try rfl

/-- The mask that forgets the output window (for a claim that does not read the logits). -/
abbrev fgtOut : Fin cfg1.W → Bool := fun | 0 => false | 1 => false | 2 => false | 3 => true | ⟨_ + 4, h⟩ => absurd h (Nat.not_lt.2 (Nat.le_add_left _ _))

/-- The body obligation with the output window forgotten: it is handed back at whatever the body stored. -/
theorem body_obligation1_forget (c : Dev nD) :
    BodyObligationLoose (dat1 (F := F) V c) (defs₀ (F := F)) Variants.none () Set.univ fgtOut := fun t => by
  rw [bigSep_W1, bigSep_W1]
  -- no point is idle; the hidden state's window is stated whole, the weight's and the bias's on the part inside the
  -- array, the output's not at all; the invariant and what is owed are the same at both positions
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%X3, H3⟩⟩
  rw [before1_0 V c t d0, before1_1 V c t d1, before1_2 V c t d2, after1_0 V c t, after1_1 V c t, after1_2 V c t]
  iapply (sound_kernel1 (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (iblk1 V c 0 t) (win1_1.fill (grid1.coords t) d1 (iblk1 V c 1 t)) (win1_2.fill (grid1.coords t) d2 (iblk1 V c 2 t)) _)
  isplitl [H0]; · iexact H0
  isplitl [H1]; · iexact H1
  isplitl [H2]; · iexact H2
  isplitl [H3]; · iexists X3; iexact H3
  iintro ⟨H0, H1, H2, H3⟩
  isplitl [HΦ]; · iexact HΦ
  isplitl [Ho]; · iexact Ho
  isplitl [H0]; · iexact H0
  -- the weight's and the bias's buffers still hold their blocks filled out with the same `d`: on the part inside the
  -- array that is the zero-filled block's part
  have hw : win1_1.cut (grid1.coords t) (wfill V c t) = iblk1 V c 1 t := win1_1.cut_fill _ _ _
  have hb : win1_2.cut (grid1.coords t) (bfill V c t) = iblk1 V c 2 t := win1_2.cut_fill _ _ _
  isplitl [H1]
  · iexists d1
    change _ ⊢ owns (c : Thread nD τ) (stage1_1 (cfg1.slots t 1)) fullShare (win1_1.fill (grid1.coords t) d1 (win1_1.cut (grid1.coords t) (wfill V c t)))
    rw [hw]; try iexact H1
  isplitl [H2]
  · iexists d2
    change _ ⊢ owns (c : Thread nD τ) (stage1_2 (cfg1.slots t 2)) fullShare (win1_2.fill (grid1.coords t) d2 (win1_2.cut (grid1.coords t) (bfill V c t)))
    rw [hb]; try iexact H2
  · iexists _; iexact H3

/-- LOCALITY of the body's result: the part of the stored block inside the array does not depend on what the
    weight's and the bias's staging buffers hold past the arrays' end. -/
def Local1 : Prop :=
  ∀ (i : grid1.Coords) (x0 : Vec F S1x1024 .f32) (d1 d1' : Vec F S3072x1024 .f32) (b1 : (win1_1.xblock i).Idx → Elt F .f32)
    (d2 d2' : Vec F S1x3072 .f32) (b2 : (win1_2.xblock i).Idx → Elt F .f32),
    win1_3.cut i (out1_3 x0 (win1_1.fill i d1 b1) (win1_2.fill i d2 b2))
      = win1_3.cut i (out1_3 x0 (win1_1.fill i d1' b1) (win1_2.fill i d2' b2))

/-- The body obligation naming the output, where the result is local in that sense. -/
theorem body_obligation1_exact (hloc : Local1 (F := F)) (c : Dev nD) :
    BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩⟩
  rw [before1_0 V c t d0, before1_1 V c t d1, before1_2 V c t d2, after1_0 V c t, after1_1 V c t, after1_2 V c t,
    after1_3 V c t]
  iapply (sound_kernel1 (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (iblk1 V c 0 t) (win1_1.fill (grid1.coords t) d1 (iblk1 V c 1 t)) (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  have hw : win1_1.cut (grid1.coords t) (wfill V c t) = iblk1 V c 1 t := win1_1.cut_fill _ _ _
  have hb : win1_2.cut (grid1.coords t) (bfill V c t) = iblk1 V c 2 t := win1_2.cut_fill _ _ _
  -- the stored block's part inside the array is the same whatever fills the weight's and the bias's buffers past
  -- the arrays' end: the `d`s of the fetches, or the zero word
  have ho : win1_3.cut (grid1.coords t)
        (out1_3 (iblk1 V c 0 t) (win1_1.fill (grid1.coords t) d1 (iblk1 V c 1 t)) (win1_2.fill (grid1.coords t) d2 (iblk1 V c 2 t)))
      = win1_3.cut (grid1.coords t) (out1_3 (iblk1 V c 0 t) (wfill V c t) (bfill V c t)) :=
    hloc (grid1.coords t) (iblk1 V c 0 t) d1 (fun _ => Scalar.ofBits .f32 0#32) (iblk1 V c 1 t)
      d2 (fun _ => Scalar.ofBits .f32 0#32) (iblk1 V c 2 t)
  isplitl [H1]
  · iexists d1
    change _ ⊢ owns (c : Thread nD τ) (stage1_1 (cfg1.slots t 1)) fullShare (win1_1.fill (grid1.coords t) d1 (win1_1.cut (grid1.coords t) (wfill V c t)))
    rw [hw]; try iexact H1
  isplitl [H2]
  · iexists d2
    change _ ⊢ owns (c : Thread nD τ) (stage1_2 (cfg1.slots t 2)) fullShare (win1_2.fill (grid1.coords t) d2 (win1_2.cut (grid1.coords t) (bfill V c t)))
    rw [hb]; try iexact H2
  · -- the output's buffer holds what the body stored: filled out with itself it is itself
    iexists out1_3 (iblk1 V c 0 t) (win1_1.fill (grid1.coords t) d1 (iblk1 V c 1 t)) (win1_2.fill (grid1.coords t) d2 (iblk1 V c 2 t))
    change _ ⊢ owns (c : Thread nD τ) (stage1_3 (cfg1.slots t 3)) fullShare
      (win1_3.fill (grid1.coords t)
        (out1_3 (iblk1 V c 0 t) (win1_1.fill (grid1.coords t) d1 (iblk1 V c 1 t)) (win1_2.fill (grid1.coords t) d2 (iblk1 V c 2 t)))
        (win1_3.cut (grid1.coords t) (out1_3 (iblk1 V c 0 t) (wfill V c t) (bfill V c t))))
    rw [win1_3.fill_congr_cut (grid1.coords t) ho]; try iexact H3

end Cert.KernelIdeal.Hand

end
-- ==== Proof.KI.Vals.lean ====
import proofs.«427548_j6846177870457_3_alg».proof.Proof.Gen.KernelIdeal.Launch
import proofs.«427548_j6846177870457_3_alg».proof.Proof.Gen.KernelIdeal.Skeleton
import proofs.«427548_j6846177870457_3_alg».proof.Proof.Gen.KernelIdeal.Points
import proofs.«427548_j6846177870457_3_alg».proof.Proof.KI.Reg0
import proofs.«427548_j6846177870457_3_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! # The run of @main: host operations, the gate kernel, host operations, the projection kernel, host operations

The buffer contents at each boundary are a fold from the launch memory. The first kernel's arrays end at what its
write-backs leave (named exactly). Of the second kernel's arrays only a PREDICATE is carried: what each may hold
after every write-back (for its three inputs, what it held; for the logits, whatever the chosen reading of the body
allows), so the last stretch of host operations and the final reading are stated for any such contents. -/

variable (m : (ℓ : Loc nD τ sig) → Buf (Elt F) ℓ)

/-- Core `c`'s buffers at launch. -/
abbrev W0 : Dev nD → Valuation τ sig (Elt F) := fun c b => m ((c : Dev nD), b)
/-- After the first stretch of host operations (the first kernel's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At the first kernel's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second stretch (the second kernel's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b

/-- Contents for the second kernel's four arrays on core `c`. -/
abbrev Arrs1 (c : Dev nD) : Type := (w : Fin cfg1.W) → Buf (Elt F) ((cfg1.win w).arr.view.loc (c : Thread nD τ))

/-- At the second kernel's exit, its arrays at contents `A`: every other buffer as entered. -/
def W4 (c : Dev nD) (A : Arrs1 (F := F) c) : Valuation τ sig (Elt F) := Pipeline.withArrays spec1 c (W3 m c) A
theorem W4_arr (c : Dev nD) (A : Arrs1 (F := F) c) (w : Fin cfg1.W) :
    W4 m c A (Proc.devRef .tc (Pipeline.arrRef spec1 w)) = A w := by
  unfold W4; exact Pipeline.withArrays_arr spec1 launch1.win.arr_inj c _ _ w
theorem W4_of_ne (c : Dev nD) (A : Arrs1 (F := F) c) (b : Ref sig .tc) (hb : ∀ w, Pipeline.arrRef spec1 w ≠ b) :
    W4 m c A (Proc.devRef .tc b) = W3 m c (Proc.devRef .tc b) := by
  unfold W4; exact Pipeline.withArrays_of_ne spec1 c _ _ b hb
abbrev U4 (c : Dev nD) (A : Arrs1 (F := F) c) : (b : Ref sig .tc) → Buf (Elt F) ((c : Thread nD τ).loc b) := fun b => W4 m c A b
/-- After the last stretch. -/
abbrev W5 (c : Dev nD) (A : Arrs1 (F := F) c) : Valuation τ sig (Elt F) := StableHlo.after hostOps2 (W4 m c A)

end Cert.KernelIdeal.Hand

end
-- ==== Proof.KI.Run.lean ====
import proofs.«427548_j6846177870457_3_alg».proof.Proof.Gen.KernelIdeal.Launch
import proofs.«427548_j6846177870457_3_alg».proof.Proof.Gen.KernelIdeal.Skeleton
import proofs.«427548_j6846177870457_3_alg».proof.Proof.Gen.KernelIdeal.Points
import proofs.«427548_j6846177870457_3_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! # The run of @main as segments: the two kernels' regions between three stretches of host operations -/

variable (m : (ℓ : Loc nD τ sig) → Buf (Elt F) ℓ)

/-! ## The proof data family and the thread state -/

abbrev adm : (p : Fin 2) → (pcfgs (F := F) p).Adm := fun p => (cfgs p).toPCfg_adm

/-- Every pipeline's proof data, each at its region's entry contents: the first kernel's read as it is, the second's
    with the windows `fgt` marks forgotten. -/
def rdats (fgt : Fin cfg1.W → Bool) : (p : Fin 2) → (c : Dev nD) → RDat τ (Elt F) Unit ℕ (UR sig nD τ) ℕ (Pipeline.pin (pcfgs (F := F)) adm p) c
  | ⟨0, _⟩ => fun c => (dat0 (U1 m) c).toR
  | ⟨1, _⟩ => fun c => (dat1 (U3 m) c).toRForget fgt

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What the second kernel's arrays may hold after every write-back, under the reading `fgt`. -/
def Ends (fgt : Fin cfg1.W → Bool) (c : Dev nD) (A : Arrs1 (F := F) c) : Prop := ∀ w, (rdats m fgt 1 c).ArrAt w cfg1.N (A w)

/-- The thread state after the second kernel: for SOME contents its arrays may end at, every unscoped buffer at the
    boundary's contents. -/
abbrev T4 (fgt : Fin cfg1.W → Bool) (c : Dev nD) : sProp 𝕄 :=
  iprop(∃ A : Arrs1 (F := F) c, ⌜Ends m fgt c A⌝ ∗ StableHlo.held (c : Thread nD τ) (Pipeline.ucRefs τ sig) (W4 m c A) ∗ R c)
abbrev T5 (fgt : Fin cfg1.W → Bool) (c : Dev nD) : sProp 𝕄 :=
  iprop(∃ A : Arrs1 (F := F) c, ⌜Ends m fgt c A⌝ ∗ StableHlo.held (c : Thread nD τ) (Pipeline.ucRefs τ sig) (W5 m c A) ∗ R c)

-- a StableHLO rule stated for any thread unifies at the TensorCore thread only when unification may unfold plain
-- definitions in a metavariable's type
set_option backward.isDefEq.respectTransparency.types false in
/-- The last stretch of host operations, from the buffers at the second kernel's exit whatever its arrays hold. -/
def hseg2 (fgt : Fin cfg1.W → Bool) : Pipeline.HostSeg (Name := ℕ) (U := UR sig nD τ) (pcfgs (F := F)) defs₀ 𝒱₀ L lv where
  prog := StableHlo.seq hostOps2
  pre c := T4 m fgt c
  post c := T5 m fgt c
  run c {β} k K := by
    iintro ⟨Hk, Hbd, ⟨%A, %hA, Hh, HR⟩, -⟩
    have hseq := StableHlo.wp_seq (defs := Pipeline.defs (pcfgs (F := F)) defs₀) (Variants.lift 𝒱₀) none Set.univ c (Pipeline.ucRefs τ sig) k (K := K) hostOps2
      (fun op h => Pipeline.sub_ucRefs op ((List.forall_iff_forall_mem.mp hostOps2_sub) op h))
      (fun op h => (List.forall_iff_forall_mem.mp ops2_fresh) op h) (W4 m c A)
    iapply hseq $$ [Hbd Hh]
    · isplitl [Hbd] <;> iassumption
    iintro ⟨Hbd, Hh⟩
    iapply Hk
    isplitl [Hbd]; · iexact Hbd
    iexists A
    isplitr; · ipureintro; exact hA
    isplitl [Hh] <;> iassumption

/-! ## The regions as segments -/

section Regs

variable (fgt : Fin cfg1.W → Bool)
  (hb1 : ∀ c, BodyObligationLoose (dat1 (F := F) (U3 m) c) (defs₀ (F := F)) Variants.none () Set.univ fgt)

set_option backward.isDefEq.respectTransparency.types false in
/-- The first kernel's region: entered from every unscoped buffer at `W1`, left at `W2`. -/
def reg0 : Pipeline.RDat.RegionSeg (pcfgs (F := F)) adm (rdats m fgt) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.RDat.arrays_of_unscopedBufs (p := 0) (pcfgs (F := F)) adm (rdats m fgt) launch0.win launch0.arr_whole c
      ((dat0 (U1 m) c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (fun p c => match p with | ⟨0, _⟩ => dat0 (U1 m) c | ⟨1, _⟩ => dat1 (U3 m) c) ((dat0 (U1 m) c).share_full fun _ => rfl)
      (U1 m c) (U2 m c) ((dat0 (U1 m) c).arrAt · cfg0.N) (hF0 m c) (hrest0 m c)
    rw [Pipeline.unscopedBufs_held] at hjoin
    have hpost : ((rdats m fgt 0 c).arraysAt (Pipeline.pin (pcfgs (F := F)) adm 0).N : sProp 𝕄)
        ⊢ (dat0 (U1 m) c).arrays ((dat0 (U1 m) c).arrAt · cfg0.N) := (dat0 (U1 m) c).toR_arraysAt_post cfg0.N
    iintro ⟨Ha, HO, HY, Hrest⟩
    ihave Ha' := hpost $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

set_option backward.isDefEq.respectTransparency.types false in
/-- The second kernel's region: entered from every unscoped buffer at `W3`, left with its arrays at SOME contents
    they may hold after every write-back. -/
def reg1 : Pipeline.RDat.RegionSeg (pcfgs (F := F)) adm (rdats m fgt) () defs₀ 𝒱₀ L lv 1 where
  win := launch1.win.to₀
  block_pos := launch1.block_pos
  stage_whole := launch1.stage_whole
  K := PEmpty
  osem k := k.elim
  ho := Pipeline.OwnSemFacts.none _
  hbody c := (hb1 c).toRForget
  hwaits := Pipeline.RDat.hwaits_of_owed_zero _ _ _ _ L lv 1 fun _ _ => rfl
  pre c := iprop(StableHlo.held (c : Thread nD τ) (Pipeline.ucRefs τ sig) (W3 m c) ∗ R c)
  post c := T4 m fgt c
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.RDat.arrays_of_unscopedBufs (p := 1) (pcfgs (F := F)) adm (rdats m fgt) launch1.win launch1.arr_whole c
      ((dat1 (U3 m) c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt 1 c).Φ (Fin.last _) = Pipeline.ΦA spec1 c from rfl]; unfold Pipeline.ΦA
    iintro ⟨Hr, Hp⟩
    isplitl [Hp]; · iexact Hp
    isplitr; · iempintro
    iexact Hr
  hexit c := by
    -- each array at some contents it may hold: gather the four choices into one family
    have hgather : ((rdats m fgt 1 c).arraysAt (Pipeline.pin (pcfgs (F := F)) adm 1).N : sProp 𝕄)
        ⊢ iprop(∃ A : Arrs1 (F := F) c, ⌜Ends m fgt c A⌝ ∗ (rdats m fgt 1 c).arrays A) := by
      unfold Pipeline.RDat.arraysAt
      refine (BI.bigSep_exists_pi Finset.univ _).trans ?_
      iintro ⟨%A, H⟩
      ihave H' := (BI.bigSep_pure_sep Finset.univ _ _) $$ H
      icases H' with ⟨%hA, H'⟩
      iexists A
      isplitr; · ipureintro; exact fun w => hA w (Finset.mem_univ w)
      unfold Pipeline.RDat.arrays
      iexact H'
    iintro ⟨Ha, HO, HY, Hrest⟩
    ihave Ha' := hgather $$ Ha
    icases Ha' with ⟨%A, %hA, Ha'⟩
    have hjoin := Pipeline.unscopedBufs_of_arrays (p := 1) (pcfgs (F := F)) adm (Ix := Unit) (Name := ℕ) (U := UR sig nD τ) (Lvl := ℕ)
      launch1.win launch1.arr_whole c (fun p c => match p with | ⟨0, _⟩ => dat0 (U1 m) c | ⟨1, _⟩ => dat1 (U3 m) c) ((dat1 (U3 m) c).share_full fun _ => rfl)
      (U3 m c) (U4 m c A) A (fun w => (W4_arr m c A w).symm)
      (fun b hb => W4_of_ne m c A b fun w e => hb (Finset.mem_image.mpr ⟨w, Finset.mem_univ _, e⟩))
    rw [Pipeline.unscopedBufs_held] at hjoin
    have hjoin' : iprop((rdats m fgt 1 c).arrays A ∗ Pipeline.unscopedRest (Ix := Unit) (Name := ℕ) (U := UR sig nD τ) (Lvl := ℕ) spec1 c (U3 m c))
        ⊢ (StableHlo.held (c : Thread nD τ) (Pipeline.ucRefs τ sig) (W4 m c A) : sProp 𝕄) := hjoin
    imodintro
    iexists A
    isplitr; · ipureintro; exact hA
    isplitl [Ha' Hrest]
    · iapply hjoin'; isplitl [Ha'] <;> iassumption
    isplitl [HY]; · iexact HY
    unfold Pipeline.RDat.owesAt Pipeline.owesWithin
    icases HO with ⟨%W, -, HO⟩; iexists W; iexact HO

end Regs

/-! ## @main as segments, and the launch -/

section Launch

variable (fgt : Fin cfg1.W → Bool)
  (hb1 : ∀ c, BodyObligationLoose (dat1 (F := F) (U3 m) c) (defs₀ (F := F)) Variants.none () Set.univ fgt)

/-- @main's five segments in order. -/
abbrev segs : List (Pipeline.RDat.Seg (pcfgs (F := F)) adm (rdats m fgt) () defs₀ 𝒱₀ L lv) :=
  [ .host (hseg hostOps0 hostOps0_sub ops0_fresh (W0 m)),
    .region (reg0 m fgt),
    .host (hseg hostOps1 hostOps1_sub ops1_fresh (W2 m)),
    .region (reg1 m fgt hb1),
    .host (hseg2 m fgt) ]

/-- @main is the run of the segments. -/
theorem main_run (c : Dev nD) : main (F := F) c = Pipeline.RDat.Seg.run (segs m fgt hb1) := (main_chain c).trans (by chain_rfl)

/-- The last thread state without what is owed. -/
abbrev Tend (c : Dev nD) : sProp 𝕄 :=
  iprop(∃ A : Arrs1 (F := F) c, ⌜Ends m fgt c A⌝ ∗ StableHlo.held (c : Thread nD τ) (Pipeline.ucRefs τ sig) (W5 m c A) ∗ ∃ r, prngReg c r)

theorem T5_split (c : Dev nD) :
    T5 m fgt c ⊢ iprop(Tend m fgt c ∗ ∃ W, owes (c : Thread nD τ) (0 : CellTallies nD τ sig Unit) W) := by
  iintro ⟨%A, %hA, Hh, Hp, HO⟩
  isplitr [HO]
  · iexists A
    isplitr; · ipureintro; exact hA
    isplitl [Hh]; · iexact Hh
    iexact Hp
  · iexact HO

include hb1

set_option backward.isDefEq.respectTransparency.types false in
/-- THE RUN. At the compiled mesh, from any memory with zero counters, every weakly fair execution of @main
    terminates, nothing faulting, and on every core the final memory holds every unscoped buffer at the last
    boundary's contents, for some contents `A` the second kernel's arrays may end at under the reading `fgt`. -/
theorem run (ρ : Dev nD → PrngReg) : θ_run defs (onTc (τ := τ) (main (F := F))) ⟨m, fun _ => 0, ρ⟩ (fun r => ∀ c : Dev nD,
      ∃ A : Arrs1 (F := F) c, Ends m fgt c A ∧ ∀ b ∈ Pipeline.ucRefs τ sig, r.2.mem (((c : Thread nD τ)).1, b) = W5 m c A b) :=
  Pipeline.RDat.θ_run_regions_kit (pcfgs (F := F)) adm (rdats m fgt) () cellOf_inj emb₁ defs₀ 𝒱₀ L lv m ρ main (segs m fgt hb1)
    (fun c Q => by rw [main_run m fgt hb1 c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m fgt)
    (hch := ⟨fun _ => .rfl, fun _ => .rfl, fun _ => .rfl, fun _ => .rfl, fun _ => .rfl, fun c => T5_split m fgt c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ A : Arrs1 (F := F) c, Ends m fgt c A ∧ ∀ b ∈ Pipeline.ucRefs τ sig, s.mem (((c : Thread nD τ)).1, b) = W5 m c A b)
    (hfin := fun c s' => by
      iintro ⟨⟨%A, %hA, Hh, -⟩, HSI⟩
      unfold StableHlo.held
      ihave Hr := (pointsTo_read_all (Pipeline.ucRefs τ sig) (fun b => (((c : Thread nD τ)).1, b)) (W5 m c A) s') $$ [Hh HSI]
      · isplitl [Hh] <;> iassumption
      icases Hr with ⟨%h, HSI⟩
      imodintro
      isplitr
      · ipureintro; exact ⟨A, hA, h⟩
      · iexact HSI)
    (hQ := fun s h => h)

end Launch

end Cert.KernelIdeal.Hand

end
-- ==== Proof.KI.Ends.lean ====
import proofs.«427548_j6846177870457_3_alg».proof.Proof.Gen.KernelIdeal.Launch
import proofs.«427548_j6846177870457_3_alg».proof.Proof.Gen.KernelIdeal.Skeleton
import proofs.«427548_j6846177870457_3_alg».proof.Proof.Gen.KernelIdeal.Points
import proofs.«427548_j6846177870457_3_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! # What the second kernel's arrays end at

An input array is never written: it ends as the region found it. Under a reading that names the output, the logits
array ends at what the exact proof data's write-backs leave. -/

variable (m : (ℓ : Loc nD τ sig) → Buf (Elt F) ℓ) (fgt : Fin cfg1.W → Bool) (c : Dev nD) (A : Arrs1 (F := F) c)

/-- The hidden state's array (the first window, an input) ends as entered. -/
theorem ends_hidden (h : Ends m fgt c A) : A 0 = U3 m c main_v39 := by
  have h0 := h 0
  rw [(rdats m fgt 1 c).ArrAt_in 0 rfl] at h0
  exact h0

/-- The output weights' array (the second window, an input) ends as entered. -/
theorem ends_weights (h : Ends m fgt c A) : A 1 = U3 m c main_arg8 := by
  have h1 := h 1
  rw [(rdats m fgt 1 c).ArrAt_in 1 rfl] at h1
  exact h1

/-- Where the reading names the output window, the logits array ends at the exact data's contents. -/
theorem ends_logits (hf : fgt 3 = false) (h : Ends m fgt c A) : A 3 = (dat1 (U3 m) c).arrAt 3 cfg1.N :=
  ((dat1 (U3 m) c).toRForget_arrAt_iff hf cfg1.N (A 3)).mp (h 3)

end Cert.KernelIdeal.Hand

end
-- ==== Proof.KI.Args.lean ====
import proofs.«427548_j6846177870457_3_alg».proof.Proof.KI.Vals
import Idealize.ShloMosaic.Lib.StableHlo.Run
import Idealize.ShloMosaic.Lib.Pipeline.Cells

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! # The argument arrays end as launched

A host operation rewrites only its result reference, and no result reference is an argument; a kernel changes only
its output array, and reads an argument either through an input window (which its pipeline leaves as found) or not
at all. So the fold of buffer contents, read at an argument, walks back boundary by boundary to the launch memory. -/

variable (m : (ℓ : Loc nD τ sig) → Buf (Elt F) ℓ) (c : Dev nD)

/-! ## What each stretch of host operations writes -/

/-- The result references of the first stretch, -/
abbrev wr0 : List (Ref sig .tc) :=
  [main_c, main_v0, main_v1, main_c_0, main_v2, main_v3, main_v4, main_v5, main_v6, main_v7, main_v8, main_v9, main_v10]
/-- of the second, -/
abbrev wr1 : List (Ref sig .tc) :=
  [main_v12, main_v13, main_v14, main_cst, main_v15, main_v16, main_cst_1, main_v17, main_v18, main_v19, main_v20, main_v21,
   main_cst_2, main_v22, main_v23, main_cst_3, main_v24, main_v25, main_v26, main_v27, main_v28, main_v29, main_v30, main_cst_4,
   main_v31, main_v32, main_cst_5, main_v33, main_v34, main_v35, main_v36, main_v37, main_v38, main_v39, main_v40]
/-- and of the third. -/
abbrev wr2 : List (Ref sig .tc) := [main_v42, main_v43]

/-- Each operation of a stretch writes its own result reference and nothing else. -/
theorem wr0_sub : (hostOps0 : List (HloOp τ sig (Elt F))).Forall fun op => op.writes ⊆ (wr0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem wr1_sub : (hostOps1 : List (HloOp τ sig (Elt F))).Forall fun op => op.writes ⊆ (wr1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem wr2_sub : (hostOps2 : List (HloOp τ sig (Elt F))).Forall fun op => op.writes ⊆ (wr2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-! ## A reference a stretch does not write keeps its contents across it -/

theorem W1_keep (r : Ref sig .tc) (h : r ∉ wr0) : W1 m c (Proc.devRef .tc r) = W0 m c (Proc.devRef .tc r) :=
  StableHlo.after_of_writes_sub hostOps0 _ wr0_sub h
theorem W3_keep (r : Ref sig .tc) (h : r ∉ wr1) : W3 m c (Proc.devRef .tc r) = W2 m c (Proc.devRef .tc r) :=
  StableHlo.after_of_writes_sub hostOps1 _ wr1_sub h
theorem W5_keep (A : Arrs1 (F := F) c) (r : Ref sig .tc) (h : r ∉ wr2) :
    W5 m c A (Proc.devRef .tc r) = W4 m c A (Proc.devRef .tc r) :=
  StableHlo.after_of_writes_sub hostOps2 _ wr2_sub h

/-- A reference that is no array of either kernel and no result of any stretch holds at the end what it was launched with. -/
theorem W5_through (A : Arrs1 (F := F) c) (r : Ref sig .tc) (h2 : r ∉ wr2) (hs1 : ∀ w, Pipeline.arrRef spec1 w ≠ r)
    (h1 : r ∉ wr1) (hs0 : ∀ w, Pipeline.arrRef spec0 w ≠ r) (h0 : r ∉ wr0) :
    W5 m c A (Proc.devRef .tc r) = W0 m c (Proc.devRef .tc r) :=
  (W5_keep m c A r h2).trans <| (W4_of_ne m c A r hs1).trans <| (W3_keep m c r h1).trans <|
    (W2_of_ne m c r hs0).trans (W1_keep m c r h0)

/-- The two weight matrices are input arrays of the first kernel: its pipeline leaves an input array as it found it. -/
theorem W2_arg4 : W2 m c (Proc.devRef .tc main_arg4) = W1 m c (Proc.devRef .tc main_arg4) :=
  (W2_arr m c 2).trans (((dat0 (U1 m) c).arrAt_in 2 rfl _).trans (A_eq0 (U1 m) c 2))
theorem W2_arg5 : W2 m c (Proc.devRef .tc main_arg5) = W1 m c (Proc.devRef .tc main_arg5) :=
  (W2_arr m c 3).trans (((dat0 (U1 m) c).arrAt_in 3 rfl _).trans (A_eq0 (U1 m) c 3))

/-- No host operation and no kernel writes an argument: each ends as launched (the output weights are the second
    kernel's second array, an input: `hA1`). -/
theorem W5_args (A : Arrs1 (F := F) c) (hA1 : A 1 = U3 m c main_arg8) :
    W5 m c A (Proc.devRef .tc main_arg0) = m ((c : Thread nD τ).loc main_arg0)
    ∧ W5 m c A (Proc.devRef .tc main_arg1) = m ((c : Thread nD τ).loc main_arg1)
    ∧ W5 m c A (Proc.devRef .tc main_arg2) = m ((c : Thread nD τ).loc main_arg2)
    ∧ W5 m c A (Proc.devRef .tc main_arg3) = m ((c : Thread nD τ).loc main_arg3)
    ∧ W5 m c A (Proc.devRef .tc main_arg4) = m ((c : Thread nD τ).loc main_arg4)
    ∧ W5 m c A (Proc.devRef .tc main_arg5) = m ((c : Thread nD τ).loc main_arg5)
    ∧ W5 m c A (Proc.devRef .tc main_arg6) = m ((c : Thread nD τ).loc main_arg6)
    ∧ W5 m c A (Proc.devRef .tc main_arg7) = m ((c : Thread nD τ).loc main_arg7)
    ∧ W5 m c A (Proc.devRef .tc main_arg8) = m ((c : Thread nD τ).loc main_arg8)
    ∧ W5 m c A (Proc.devRef .tc main_arg9) = m ((c : Thread nD τ).loc main_arg9) := by
  refine ⟨?_, ?_, ?_, ?_, ?_, ?_, ?_, ?_, ?_, ?_⟩
  · exact W5_through m c A main_arg0 (by decide) (by decide) (by decide) (by decide) (by decide)
  · exact W5_through m c A main_arg1 (by decide) (by decide) (by decide) (by decide) (by decide)
  · exact W5_through m c A main_arg2 (by decide) (by decide) (by decide) (by decide) (by decide)
  · exact W5_through m c A main_arg3 (by decide) (by decide) (by decide) (by decide) (by decide)
  · -- read by the first kernel through its third window
    exact (W5_keep m c A main_arg4 (by decide)).trans <| (W4_of_ne m c A main_arg4 (by decide)).trans <|
      (W3_keep m c main_arg4 (by decide)).trans <| (W2_arg4 m c).trans (W1_keep m c main_arg4 (by decide))
  · -- and through its fourth
    exact (W5_keep m c A main_arg5 (by decide)).trans <| (W4_of_ne m c A main_arg5 (by decide)).trans <|
      (W3_keep m c main_arg5 (by decide)).trans <| (W2_arg5 m c).trans (W1_keep m c main_arg5 (by decide))
  · exact W5_through m c A main_arg6 (by decide) (by decide) (by decide) (by decide) (by decide)
  · exact W5_through m c A main_arg7 (by decide) (by decide) (by decide) (by decide) (by decide)
  · -- read by the second kernel through its second window
    exact (W5_keep m c A main_arg8 (by decide)).trans <| (W4_arr m c A 1).trans <| hA1.trans <|
      (W3_keep m c main_arg8 (by decide)).trans <| (W2_of_ne m c main_arg8 (by decide)).trans (W1_keep m c main_arg8 (by decide))
  · exact W5_through m c A main_arg9 (by decide) (by decide) (by decide) (by decide) (by decide)

end Cert.KernelIdeal.Hand

end
-- ==== Proof.KI.Frame.lean ====
import proofs.«427548_j6846177870457_3_alg».proof.Proof.Gen.KernelIdeal.Launch
import proofs.«427548_j6846177870457_3_alg».proof.Proof.Gen.KernelIdeal.Skeleton
import proofs.«427548_j6846177870457_3_alg».proof.Proof.Gen.KernelIdeal.Points
import proofs.«427548_j6846177870457_3_alg».proof.Proof.KI.Ends
import proofs.«427548_j6846177870457_3_alg».proof.Proof.KI.Args
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! # The frame: @main runs to the end, nothing faults, and every argument array ends as launched

Read off the run: whatever the second kernel's arrays end at, no host operation and no kernel writes an argument
(the output weights, an input of the second kernel, end as entered). -/

variable (m : (ℓ : Loc nD τ sig) → Buf (Elt F) ℓ)

theorem frame_of (fgt : Fin cfg1.W → Bool)
    (hb1 : ∀ c, BodyObligationLoose (dat1 (F := F) (U3 m) c) (defs₀ (F := F)) Variants.none () Set.univ fgt)
    (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c => by
    obtain ⟨A, hA, hmem⟩ := h c
    obtain ⟨h0, h1, h2, h3, h4, h5, h6, h7, h8, h9⟩ := W5_args m c A (ends_weights m fgt c A hA)
    exact ⟨(hmem _ (mem_uc main_arg0 (by decide))).trans h0,
      (hmem _ (mem_uc main_arg1 (by decide))).trans h1,
      (hmem _ (mem_uc main_arg2 (by decide))).trans h2,
      (hmem _ (mem_uc main_arg3 (by decide))).trans h3,
      (hmem _ (mem_uc main_arg4 (by decide))).trans h4,
      (hmem _ (mem_uc main_arg5 (by decide))).trans h5,
      (hmem _ (mem_uc main_arg6 (by decide))).trans h6,
      (hmem _ (mem_uc main_arg7 (by decide))).trans h7,
      (hmem _ (mem_uc main_arg8 (by decide))).trans h8,
      (hmem _ (mem_uc main_arg9 (by decide))).trans h9⟩)
    (run m fgt hb1 ρ)

end Cert.KernelIdeal.Hand

end
-- ==== Proof.KI.Combine.lean ====
import proofs.«427548_j6846177870457_3_alg».proof.Proof.KI.Vals
import proofs.«427548_j6846177870457_3_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable {F : FTy → Type} [FloatOps F]

/-! # Between the kernels: the gate activations and the cell update, and what is read at the end

The host operations between the two kernels apply to the gate row exactly the operations the reference applies to
its own gate row: given equal gate rows, the new hidden and cell states are the reference's, by the same term. -/

variable (m : (ℓ : Loc nD τ sig) → Buf (Elt F) ℓ) (c : Dev nD)

/-! ## What the boundaries hold at single references -/

/-- The gate row at the first kernel's exit is what its pipeline leaves in its output array. -/
theorem W2_v11 : W2 m c (Proc.devRef .tc main_v11) = (dat0 (F := F) (U1 m) c).arrAt 6 cfg0.N := W2_arr m c 6

/-- The first kernel does not touch the reshaped cell state, -/
theorem W2_v8 : W2 m c (Proc.devRef .tc main_v8) = W1 m c (Proc.devRef .tc main_v8) := W2_of_ne m c main_v8 (by decide)

/-- which the first stretch makes from the launched cell state by a reshape. -/
theorem W1_v8 : W1 m c (Proc.devRef .tc main_v8)
    = shapeCast S1x1024 (m ((c : Thread nD τ).loc main_arg2)) shapeCasts_S1x1x1024_S1x1024 := by
  show StableHlo.after hostOps0 (W0 m c) (Proc.devRef .tc main_v8) = _
  after_results
  rfl

/-- The new hidden state the second kernel is entered with is the reference's, given the gate row is. -/
theorem hidden_eq
    (hg : (dat0 (F := F) (U1 m) c).arrAt 6 cfg0.N = Cert.ReferenceIdeal.Read.val_main_v18 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :
    U3 m c main_v39 = Cert.ReferenceIdeal.Read.val_main_v46 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps1 (W2 m c) (Proc.devRef .tc main_v39) = _
  after_results_simp
  rw [W2_v11 m c, hg, W2_v8 m c, W1_v8 m c]
  rfl

/-- The new cell state likewise. -/
theorem cell_eq
    (hg : (dat0 (F := F) (U1 m) c).arrAt 6 cfg0.N = Cert.ReferenceIdeal.Read.val_main_v18 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :
    U3 m c main_v37 = Cert.ReferenceIdeal.Read.val_main_v44 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps1 (W2 m c) (Proc.devRef .tc main_v37) = _
  after_results_simp
  rw [W2_v11 m c, hg, W2_v8 m c, W1_v8 m c]
  rfl

/-! ## What the final buffers hold, for any contents `A` the second kernel's arrays may end at -/

/-- The logits buffer ends at the second kernel's fourth array. -/
theorem W5_logits (A : Arrs1 (F := F) c) : W5 m c A (Proc.devRef .tc main_v41) = A 3 := by
  -- the last stretch's two reshapes write other references
  show StableHlo.after hostOps2 (W4 m c A) (Proc.devRef .tc main_v41) = _
  after_results
  exact W4_arr m c A 3

/-- The hidden state is the second kernel's first array, -/
theorem W4_v39 (A : Arrs1 (F := F) c) : W4 m c A (Proc.devRef .tc main_v39) = A 0 := W4_arr m c A 0
/-- and the cell state is none of its arrays. -/
theorem W4_v37 (A : Arrs1 (F := F) c) : W4 m c A (Proc.devRef .tc main_v37) = U3 m c main_v37 :=
  W4_of_ne m c A main_v37 (by decide)

/-- The two reshaped results: the hidden state as the second kernel was entered with it (its first array, an input),
    and the cell state. -/
theorem W5_hidden (A : Arrs1 (F := F) c) (hA0 : A 0 = U3 m c main_v39)
    (hg : (dat0 (F := F) (U1 m) c).arrAt 6 cfg0.N = Cert.ReferenceIdeal.Read.val_main_v18 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :
    W5 m c A (Proc.devRef .tc main_v42) = Cert.ReferenceIdeal.Read.val_main_v51 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m c A) (Proc.devRef .tc main_v42) = _
  after_results
  rw [W4_v39 m c A, hA0, hidden_eq m c hg]
  rfl
theorem W5_cell (A : Arrs1 (F := F) c)
    (hg : (dat0 (F := F) (U1 m) c).arrAt 6 cfg0.N = Cert.ReferenceIdeal.Read.val_main_v18 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :
    W5 m c A (Proc.devRef .tc main_v43) = Cert.ReferenceIdeal.Read.val_main_v52 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m c A) (Proc.devRef .tc main_v43) = _
  after_results
  rw [W4_v37 m c A, cell_eq m c hg]
  rfl

end Cert.KernelIdeal.Hand

end
-- ==== Proof.KI.Gates.lean ====
import proofs.«427548_j6846177870457_3_alg».proof.Proof.KI.Vals
import proofs.«427548_j6846177870457_3_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

/-! # The gate pre-activations the first kernel leaves, over the extended reals

Column `j` of the 1×4096 gate row is written by grid point `j / 1024`: the embedded row (clamped at zero) times row
`j` of the input weights, plus the hidden state times row `j` of the recurrent weights, plus the two biases at `j`.
The reference adds the same four numbers in another order; addition of extended reals is commutative and associative. -/

/-! ## The six blocks a grid point reads, as entries of their arrays

Point `t` reads the two rows whole, rows `1024 t … 1024 t + 1023` of each weight matrix and columns
`1024 t … 1024 t + 1023` of each bias row, and writes the same columns of the gate row. -/

section Blocks

variable {F : FTy → Type} [FloatOps F]
variable (V : (c : Dev nD) → (b : Ref sig .tc) → Buf (Elt F) ((c : Thread nD τ).loc b))

/-- The block index of each window at each point of the grid. -/
theorem gate_idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

/-- The embedded row's block is the row. -/
theorem gate_blk_row_apply (c : Dev nD) (t : Fin cfg0.N) (j : S1x1024.Idx) :
    (iblk0 V c 0 t : Vec F S1x1024 .f32) j = (V c main_v6 : S1x1024.Idx → Elt F .f32) j := by
  obtain ⟨e0, e1, -⟩ := gate_idx_facts t
  unfold iblk0
  rw [View.read_apply]
  show V c main_v6 _ = V c main_v6 _
  congr 1
  funext a
  apply Fin.ext
  match a with
  | ⟨0, _⟩ => show win0_0.index t (0 : Fin 2) * 1 + 1 * (j 0).val = (j 0).val; rw [e0]; omega
  | ⟨1, _⟩ => show win0_0.index t (1 : Fin 2) * 1024 + 1 * (j 1).val = (j 1).val; rw [e1]; omega

/-- The hidden state's block is the row. -/
theorem gate_blk_hidden_apply (c : Dev nD) (t : Fin cfg0.N) (j : S1x1024.Idx) :
    (iblk0 V c 1 t : Vec F S1x1024 .f32) j = (V c main_v7 : S1x1024.Idx → Elt F .f32) j := by
  obtain ⟨-, -, e0, e1, -⟩ := gate_idx_facts t
  unfold iblk0
  rw [View.read_apply]
  show V c main_v7 _ = V c main_v7 _
  congr 1
  funext a
  apply Fin.ext
  match a with
  | ⟨0, _⟩ => show win0_1.index t (0 : Fin 2) * 1 + 1 * (j 0).val = (j 0).val; rw [e0]; omega
  | ⟨1, _⟩ => show win0_1.index t (1 : Fin 2) * 1024 + 1 * (j 1).val = (j 1).val; rw [e1]; omega

/-- Entry `(r, k)` of the input weights' slab at point `t` is entry `(1024 t + r, k)` of the matrix. -/
theorem gate_blk_w_in_apply (c : Dev nD) (t : Fin cfg0.N) (j : S1024x1024.Idx) (i : S4096x1024.Idx)
    (h0 : (i 0).val = 1024 * t.val + (j 0).val) (h1 : (i 1).val = (j 1).val) :
    (iblk0 V c 2 t : Vec F S1024x1024 .f32) j = (V c main_arg4 : S4096x1024.Idx → Elt F .f32) i := by
  obtain ⟨-, -, -, -, e0, e1, -⟩ := gate_idx_facts t
  unfold iblk0
  rw [View.read_apply]
  show V c main_arg4 _ = V c main_arg4 _
  congr 1
  funext a
  apply Fin.ext
  match a with
  | ⟨0, _⟩ => show win0_2.index t (0 : Fin 2) * 1024 + 1 * (j 0).val = (i 0).val; rw [e0, h0]; omega
  | ⟨1, _⟩ => show win0_2.index t (1 : Fin 2) * 1024 + 1 * (j 1).val = (i 1).val; rw [e1, h1]; omega

/-- The same for the recurrent weights. -/
theorem gate_blk_w_rec_apply (c : Dev nD) (t : Fin cfg0.N) (j : S1024x1024.Idx) (i : S4096x1024.Idx)
    (h0 : (i 0).val = 1024 * t.val + (j 0).val) (h1 : (i 1).val = (j 1).val) :
    (iblk0 V c 3 t : Vec F S1024x1024 .f32) j = (V c main_arg5 : S4096x1024.Idx → Elt F .f32) i := by
  obtain ⟨-, -, -, -, -, -, e0, e1, -⟩ := gate_idx_facts t
  unfold iblk0
  rw [View.read_apply]
  show V c main_arg5 _ = V c main_arg5 _
  congr 1
  funext a
  apply Fin.ext
  match a with
  | ⟨0, _⟩ => show win0_3.index t (0 : Fin 2) * 1024 + 1 * (j 0).val = (i 0).val; rw [e0, h0]; omega
  | ⟨1, _⟩ => show win0_3.index t (1 : Fin 2) * 1024 + 1 * (j 1).val = (i 1).val; rw [e1, h1]; omega

/-- Entry `(0, r)` of the input bias's piece at point `t` is entry `(0, 1024 t + r)` of the bias row. -/
theorem gate_blk_b_in_apply (c : Dev nD) (t : Fin cfg0.N) (j : S1x1024.Idx) (i : S1x4096.Idx)
    (h0 : (i 0).val = (j 0).val) (h1 : (i 1).val = 1024 * t.val + (j 1).val) :
    (iblk0 V c 4 t : Vec F S1x1024 .f32) j = (V c main_v9 : S1x4096.Idx → Elt F .f32) i := by
  obtain ⟨-, -, -, -, -, -, -, -, e0, e1, -⟩ := gate_idx_facts t
  unfold iblk0
  rw [View.read_apply]
  show V c main_v9 _ = V c main_v9 _
  congr 1
  funext a
  apply Fin.ext
  match a with
  | ⟨0, _⟩ => show win0_4.index t (0 : Fin 2) * 1 + 1 * (j 0).val = (i 0).val; rw [e0, h0]; omega
  | ⟨1, _⟩ => show win0_4.index t (1 : Fin 2) * 1024 + 1 * (j 1).val = (i 1).val; rw [e1, h1]; omega

/-- The same for the recurrent bias. -/
theorem gate_blk_b_rec_apply (c : Dev nD) (t : Fin cfg0.N) (j : S1x1024.Idx) (i : S1x4096.Idx)
    (h0 : (i 0).val = (j 0).val) (h1 : (i 1).val = 1024 * t.val + (j 1).val) :
    (iblk0 V c 5 t : Vec F S1x1024 .f32) j = (V c main_v10 : S1x4096.Idx → Elt F .f32) i := by
  obtain ⟨-, -, -, -, -, -, -, -, -, -, e0, e1, -⟩ := gate_idx_facts t
  unfold iblk0
  rw [View.read_apply]
  show V c main_v10 _ = V c main_v10 _
  congr 1
  funext a
  apply Fin.ext
  match a with
  | ⟨0, _⟩ => show win0_5.index t (0 : Fin 2) * 1 + 1 * (j 0).val = (i 0).val; rw [e0, h0]; omega
  | ⟨1, _⟩ => show win0_5.index t (1 : Fin 2) * 1024 + 1 * (j 1).val = (i 1).val; rw [e1, h1]; omega

end Blocks

variable (m : (ℓ : Loc nD τ sig) → Buf (Elt Ideal) ℓ)

/-! ## What the kernel finds in the six buffers it reads -/

/-- The embedded row: the same gather of the embedding table the reference makes. -/
theorem gate_entry_row (c : Dev nD) : U1 m c main_v6
    = Cert.ReferenceIdeal.Read.val_main_v6 (F := Ideal) (m ((c : Thread nD τ).loc main_arg0)) (m ((c : Thread nD τ).loc main_arg3)) := by
  dsimp only [U1, W1]
  show StableHlo.after hostOps0 _ (Proc.devRef .tc main_v6) = _
  after_results
  rfl

/-- The hidden state, reshaped to one row. -/
theorem gate_entry_hidden (c : Dev nD) : U1 m c main_v7
    = Cert.ReferenceIdeal.Read.val_main_v8 (F := Ideal) (m ((c : Thread nD τ).loc main_arg1)) := by
  dsimp only [U1, W1]
  show StableHlo.after hostOps0 _ (Proc.devRef .tc main_v7) = _
  after_results
  rfl

/-- The input weights are as launched. -/
theorem gate_entry_w_in (c : Dev nD) : U1 m c main_arg4 = m ((c : Thread nD τ).loc main_arg4) := by
  dsimp only [U1, W1]
  show StableHlo.after hostOps0 _ (Proc.devRef .tc main_arg4) = _
  after_results

/-- The recurrent weights are as launched. -/
theorem gate_entry_w_rec (c : Dev nD) : U1 m c main_arg5 = m ((c : Thread nD τ).loc main_arg5) := by
  dsimp only [U1, W1]
  show StableHlo.after hostOps0 _ (Proc.devRef .tc main_arg5) = _
  after_results

/-- The input bias as one row: column `r` is entry `r` of the bias vector. -/
theorem gate_entry_b_in_apply (c : Dev nD) (i : S1x4096.Idx) (k : S4096.Idx) (hk : (k 0).val = (i 1).val) :
    (U1 m c main_v9 : S1x4096.Idx → Elt Ideal .f32) i = (m ((c : Thread nD τ).loc main_arg6) : S4096.Idx → Elt Ideal .f32) k := by
  have e : U1 m c main_v9 = shapeCast S1x4096 (m ((c : Thread nD τ).loc main_arg6) : S4096.Idx → Elt Ideal .f32) shapeCasts_S4096_S1x4096 := by
    dsimp only [U1, W1]
    show StableHlo.after hostOps0 _ (Proc.devRef .tc main_v9) = _
    after_results
    rfl
  rw [e]
  exact shapeCast_apply _ shapeCasts_S4096_S1x4096 i k (by
    rewrite [Shape.rowMajor_val_one, Shape.rowMajor_val_two]
    have h0 : (i 0).val < 1 := (i 0).isLt
    show (k 0).val = (i 0).val * 4096 + (i 1).val
    omega)

/-- The recurrent bias as one row, likewise. -/
theorem gate_entry_b_rec_apply (c : Dev nD) (i : S1x4096.Idx) (k : S4096.Idx) (hk : (k 0).val = (i 1).val) :
    (U1 m c main_v10 : S1x4096.Idx → Elt Ideal .f32) i = (m ((c : Thread nD τ).loc main_arg7) : S4096.Idx → Elt Ideal .f32) k := by
  have e : U1 m c main_v10 = shapeCast S1x4096 (m ((c : Thread nD τ).loc main_arg7) : S4096.Idx → Elt Ideal .f32) shapeCasts_S4096_S1x4096 := by
    dsimp only [U1, W1]
    show StableHlo.after hostOps0 _ (Proc.devRef .tc main_v10) = _
    after_results
    rfl
  rw [e]
  exact shapeCast_apply _ shapeCasts_S4096_S1x4096 i k (by
    rewrite [Shape.rowMajor_val_one, Shape.rowMajor_val_two]
    have h0 : (i 0).val < 1 := (i 0).isLt
    show (k 0).val = (i 0).val * 4096 + (i 1).val
    omega)

/-! ## The payload at a column

Both products contract the second axis of both operands: entry `(0, r)` of a row times a slab is the sum over `k` of the
row at `(0, k)` times the slab at `(r, k)`. -/

/-- The row operand's index at output index `j` and contraction position `k`. -/
abbrev gateRowAt (j : S1x1024.Idx) (k : Fin 1024) : S1x1024.Idx := fun a => match a with
  | ⟨0, _⟩ => ⟨(j 0).val, (j 0).isLt⟩
  | ⟨1, _⟩ => ⟨k.val, k.isLt⟩
/-- The slab operand's index at output index `j` and contraction position `k`. -/
abbrev gateSlabAt (j : S1x1024.Idx) (k : Fin 1024) : S1024x1024.Idx := fun a => match a with
  | ⟨0, _⟩ => ⟨(j 1).val, (j 1).isLt⟩
  | ⟨1, _⟩ => ⟨k.val, k.isLt⟩

theorem gate_row_axis0 (j : S1x1024.Idx) (q : dot_S1x1024_S1024x1024_S1x1024_1_1_0_0_n_n.contr.Idx) :
    (dot_S1x1024_S1024x1024_S1x1024_1_1_0_0_n_n.lhsIdx j q 0).val = (j 0).val := by
  unfold DotDims.lhsIdx
  rw [dif_neg (show ¬(0 : Fin S1x1024.rank) ∈ dot_S1x1024_S1024x1024_S1x1024_1_1_0_0_n_n.lhsBatch by decide), dif_pos (show (0 : Fin S1x1024.rank) ∈ dot_S1x1024_S1024x1024_S1x1024_1_1_0_0_n_n.lhsNonContracting by decide)]
  rfl
theorem gate_row_axis1 (j : S1x1024.Idx) (q : dot_S1x1024_S1024x1024_S1x1024_1_1_0_0_n_n.contr.Idx) :
    (dot_S1x1024_S1024x1024_S1x1024_1_1_0_0_n_n.lhsIdx j q 1).val = (q ⟨0, by decide⟩).val :=
  dot_S1x1024_S1024x1024_S1x1024_1_1_0_0_n_n.lhsIdx_val_of_single rfl j q
theorem gate_slab_axis0 (j : S1x1024.Idx) (q : dot_S1x1024_S1024x1024_S1x1024_1_1_0_0_n_n.contr.Idx) :
    (dot_S1x1024_S1024x1024_S1x1024_1_1_0_0_n_n.rhsIdx j q 0).val = (j 1).val := by
  unfold DotDims.rhsIdx
  rw [dif_neg (show ¬(0 : Fin S1024x1024.rank) ∈ dot_S1x1024_S1024x1024_S1x1024_1_1_0_0_n_n.rhsBatch by decide), dif_pos (show (0 : Fin S1024x1024.rank) ∈ dot_S1x1024_S1024x1024_S1x1024_1_1_0_0_n_n.rhsNonContracting by decide)]
  rfl
theorem gate_slab_axis1 (j : S1x1024.Idx) (q : dot_S1x1024_S1024x1024_S1x1024_1_1_0_0_n_n.contr.Idx) :
    (dot_S1x1024_S1024x1024_S1x1024_1_1_0_0_n_n.rhsIdx j q 1).val = (q ⟨0, by decide⟩).val :=
  dot_S1x1024_S1024x1024_S1x1024_1_1_0_0_n_n.rhsIdx_val_of_single rfl j q

/-- A row times a slab into the zero accumulator, at a column: the sum of the products along the shared axis. -/
theorem gate_row_slab_apply (v : FVec Ideal S1x1024 .bf16) (w : FVec Ideal S1024x1024 .bf16) (j : S1x1024.Idx) :
    matmul dot_S1x1024_S1024x1024_S1x1024_1_1_0_0_n_n none v w (constant S1x1024 .f32 0x00000000#32) j
      = ∑ k : Fin 1024, v (gateRowAt j k) * w (gateSlabAt j k) := by
  simp only [matmul]
  rw [Ideal.matmul_constant_zero_apply, ← Equiv.sum_comp (ValueIdx.contrEquiv1 dot_S1x1024_S1024x1024_S1x1024_1_1_0_0_n_n 1024 rfl rfl).symm]
  refine Finset.sum_congr rfl fun k _ => ?_
  have hk := ValueIdx.contrEquiv1_symm_val dot_S1x1024_S1024x1024_S1x1024_1_1_0_0_n_n 1024 rfl rfl k
  have el : dot_S1x1024_S1024x1024_S1x1024_1_1_0_0_n_n.lhsIdx j ((ValueIdx.contrEquiv1 dot_S1x1024_S1024x1024_S1x1024_1_1_0_0_n_n 1024 rfl rfl).symm k) = gateRowAt j k := funext fun a => Fin.ext (by
    match a with
    | ⟨0, _⟩ => exact gate_row_axis0 _ _
    | ⟨1, _⟩ => exact (gate_row_axis1 _ _).trans hk)
  have er : dot_S1x1024_S1024x1024_S1x1024_1_1_0_0_n_n.rhsIdx j ((ValueIdx.contrEquiv1 dot_S1x1024_S1024x1024_S1x1024_1_1_0_0_n_n 1024 rfl rfl).symm k) = gateSlabAt j k := funext fun a => Fin.ext (by
    match a with
    | ⟨0, _⟩ => exact gate_slab_axis0 _ _
    | ⟨1, _⟩ => exact (gate_slab_axis1 _ _).trans hk)
  rw [el, er]

/-- What one grid point stores at column `j` of its piece, from its six blocks. -/
theorem gate_pay_apply (x h : Vec Ideal S1x1024 .f32) (A B : Vec Ideal S1024x1024 .f32) (p q : Vec Ideal S1x1024 .f32) (j : S1x1024.Idx) :
    k0_pay1 x h A B p q j
      = ((∑ k : Fin 1024, max (x (gateRowAt j k)) 0 * A (gateSlabAt j k) + ∑ k : Fin 1024, h (gateRowAt j k) * B (gateSlabAt j k)) + p j) + q j := by
  unfold k0_pay1
  simp only [shapeCast_self]
  rw [addf_apply, addf_apply, addf_apply, gate_row_slab_apply, gate_row_slab_apply]
  simp only [truncf_apply, maximumf_apply, broadcast_apply]
  rw [show (FloatOps.ofBits (F := Ideal) FTy.f32 0x00000000#32) = (0 : EReal) from Ideal.ofBits_zero_f32]

/-! ## The reference's gate row at a column -/

section Reference

open Cert.ReferenceIdeal.Read

/-- Column `i` of the reference's gate row: the input product plus the input bias, plus the recurrent product, plus the
    recurrent bias, each read off the launch arguments. -/
theorem gate_ref_apply (a0 : (⟨Cert.ReferenceIdeal.S1, .i32⟩ : BufTy).Contents (Elt Ideal)) (a1 : (⟨Cert.ReferenceIdeal.S1x1x1024, .f32⟩ : BufTy).Contents (Elt Ideal))
    (a3 : (⟨Cert.ReferenceIdeal.S50257x1024, .f32⟩ : BufTy).Contents (Elt Ideal)) (a4 a5 : (⟨Cert.ReferenceIdeal.S4096x1024, .f32⟩ : BufTy).Contents (Elt Ideal))
    (a6 a7 : (⟨Cert.ReferenceIdeal.S4096, .f32⟩ : BufTy).Contents (Elt Ideal)) (i : Cert.ReferenceIdeal.S1x4096.Idx) :
    val_main_v18 (F := Ideal) a0 a1 a3 a4 a5 a6 a7 i
      = ((∑ k : Fin 1024, max (val_main_v6 (F := Ideal) a0 a3 (lidx_main_v11 i k)) 0 * a4 (idx_main_v10 (ridx_main_v11 i k)) + a6 (idx_main_v12 i))
          + ∑ k : Fin 1024, a1 (idx_main_v8 (lidx_main_v15 i k)) * a5 (idx_main_v14 (ridx_main_v15 i k))) + a7 (idx_main_v17 i) := by
  rw [val_main_v18_apply, val_main_v16_apply, val_main_v13_apply, val_main_v11_apply, val_main_v15_apply, val_main_v12_apply, val_main_v17_apply]
  simp only [val_main_v7_apply, val_main_v10_apply, val_main_v8_apply, val_main_v14_apply, val_main_call0_v0_apply, val_main_call0_cst_apply]
  rw [show (FloatOps.ofBits (F := Ideal) FTy.f32 0x00000000#32) = (0 : EReal) from Ideal.ofBits_zero_f32]
  rfl

end Reference

/-! ## One grid point's piece is the reference's, column by column -/

/-- The reference's gate row of the launch arguments. -/
abbrev gateRow (c : Dev nD) : Cert.ReferenceIdeal.S1x4096.Idx → Elt Ideal .f32 :=
  Cert.ReferenceIdeal.Read.val_main_v18 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))

/-- What point `t` stores at column `r` of its piece is column `1024 t + r` of the reference's gate row: the same two
    sums and the same two bias entries, the input bias added before the recurrent product there and after it here. -/
theorem gate_at (c : Dev nD) (t : Fin cfg0.N) (j : S1x1024.Idx) (i : S1x4096.Idx)
    (h0 : (i 0).val = (j 0).val) (h1 : (i 1).val = 1024 * t.val + (j 1).val) :
    k0_pay1 (iblk0 (U1 m) c 0 t) (iblk0 (U1 m) c 1 t) (iblk0 (U1 m) c 2 t) (iblk0 (U1 m) c 3 t) (iblk0 (U1 m) c 4 t) (iblk0 (U1 m) c 5 t) j
      = gateRow m c i := by
  rw [gate_pay_apply, gateRow, gate_ref_apply, add_right_comm (∑ k : Fin 1024, _) (∑ k : Fin 1024, _)]
  refine congrArg₂ (· + ·) (congrArg₂ (· + ·) (congrArg₂ (· + ·) ?_ ?_) ?_) ?_
  · refine Finset.sum_congr rfl fun k _ => ?_
    have ex : iblk0 (U1 m) c 0 t (gateRowAt j k)
        = Cert.ReferenceIdeal.Read.val_main_v6 (F := Ideal) (m ((c : Thread nD τ).loc main_arg0)) (m ((c : Thread nD τ).loc main_arg3)) (Cert.ReferenceIdeal.Read.lidx_main_v11 i k) := by
      rw [gate_blk_row_apply, gate_entry_row]
      exact congrArg _ (funext fun a => Fin.ext (by
        match a with
        | ⟨0, _⟩ => exact h0.symm
        | ⟨1, _⟩ => rfl))
    have ew : iblk0 (U1 m) c 2 t (gateSlabAt j k)
        = m ((c : Thread nD τ).loc main_arg4) (Cert.ReferenceIdeal.Read.idx_main_v10 (Cert.ReferenceIdeal.Read.ridx_main_v11 i k)) := by
      rw [gate_blk_w_in_apply (U1 m) c t (gateSlabAt j k) (Cert.ReferenceIdeal.Read.idx_main_v10 (Cert.ReferenceIdeal.Read.ridx_main_v11 i k)) h1 rfl, gate_entry_w_in]
    rw [ex, ew]
  · exact (gate_blk_b_in_apply (U1 m) c t j i h0 h1).trans (gate_entry_b_in_apply m c i (Cert.ReferenceIdeal.Read.idx_main_v12 i) rfl)
  · refine Finset.sum_congr rfl fun k _ => ?_
    have eh : iblk0 (U1 m) c 1 t (gateRowAt j k)
        = m ((c : Thread nD τ).loc main_arg1) (Cert.ReferenceIdeal.Read.idx_main_v8 (Cert.ReferenceIdeal.Read.lidx_main_v15 i k)) := by
      rw [gate_blk_hidden_apply, gate_entry_hidden, Cert.ReferenceIdeal.Read.val_main_v8_apply]
      exact congrArg (fun z => m ((c : Thread nD τ).loc main_arg1) (Cert.ReferenceIdeal.Read.idx_main_v8 z)) (funext fun a => Fin.ext (by
        match a with
        | ⟨0, _⟩ => exact h0.symm
        | ⟨1, _⟩ => rfl))
    have ew : iblk0 (U1 m) c 3 t (gateSlabAt j k)
        = m ((c : Thread nD τ).loc main_arg5) (Cert.ReferenceIdeal.Read.idx_main_v14 (Cert.ReferenceIdeal.Read.ridx_main_v15 i k)) := by
      rw [gate_blk_w_rec_apply (U1 m) c t (gateSlabAt j k) (Cert.ReferenceIdeal.Read.idx_main_v14 (Cert.ReferenceIdeal.Read.ridx_main_v15 i k)) h1 rfl, gate_entry_w_rec]
    rw [eh, ew]
  · exact (gate_blk_b_rec_apply (U1 m) c t j i h0 h1).trans (gate_entry_b_rec_apply m c i (Cert.ReferenceIdeal.Read.idx_main_v17 i) rfl)

/-! ## The four write-backs tile the gate row -/

theorem gate_zero_offsets : (![0, 0] : Fin 2 → Nat) = fun _ => 0 := funext fun a => by fin_cases a <;> rfl

/-- What point `t` writes back is its block of the reference's gate row. -/
theorem flushed_gates (c : Dev nD) (t : Fin cfg0.N) :
    (dat0 (F := Ideal) (U1 m) c).flushed 6 t = ((cfg0.win 6).blk t).view.read (Elt Ideal) (gateRow m c) := by
  show (cfg0.win 6).cut (grid0.coords t) ((dat0 (F := Ideal) (U1 m) c).after 6 t) = _
  rw [after0_6]
  unfold out0_6
  rw [View.canon_unit_zero gate_zero_offsets]
  simp only [View.ld_unit_zero (S := S1x1024) gate_zero_offsets, View.ld_unit_zero (S := S1024x1024) gate_zero_offsets]
  funext j
  obtain ⟨-, -, -, -, -, -, -, -, -, -, -, -, e0, e1⟩ := gate_idx_facts t
  refine (gate_at m c t j (((cfg0.win 6).blk t).view.emb j) ?_ ?_).trans ?_
  · show win0_6.index t (0 : Fin 2) * 1 + 1 * (j 0).val = (j 0).val
    rw [e0]; omega
  · show win0_6.index t (1 : Fin 2) * 1024 + 1 * (j 1).val = 1024 * t.val + (j 1).val
    rw [e1]; omega
  · rfl

/-- A column is in point `t`'s block iff each coordinate is in the block's range on its axis. -/
theorem mem_blk_gates (t : Fin cfg0.N) (i : S1x4096.Idx) :
    i ∈ ((cfg0.win 6).blk t).view.set
      ↔ ∀ a : Fin 2, win0_6.index t a * S1x1024.size a ≤ (i a).val ∧ (i a).val < win0_6.index t a * S1x1024.size a + S1x1024.size a := by
  show i ∈ ((View.whole main_v11).slice (win0_6.rect t)).set ↔ _
  rw [View.set_slice_whole, Rect.mem_set_unit]
  exact Iff.rfl

/-- Column `r` is in the block of point `r / 1024`, which is written back. -/
theorem gates_covered (i : S1x4096.Idx) :
    ∃ t : Fin cfg0.N, (cfg0.win 6).flush t = true ∧ i ∈ ((cfg0.win 6).blk t).view.set := by
  have hi0 : (i 0).val < 1 := (i 0).isLt
  have hi1 : (i 1).val < 4096 := (i 1).isLt
  obtain ⟨t, ht⟩ : ∃ t : Fin cfg0.N, t.val = (i 1).val / 1024 := ⟨⟨(i 1).val / 1024, by rw [show cfg0.N = 4 from N_0]; omega⟩, rfl⟩
  obtain ⟨-, -, -, -, -, -, -, -, -, -, -, -, e0, e1⟩ := gate_idx_facts t
  refine ⟨t, flush0_6 t, (mem_blk_gates t i).mpr fun a => ?_⟩
  match a with
  | ⟨0, _⟩ =>
    show win0_6.index t (0 : Fin 2) * 1 ≤ (i 0).val ∧ (i 0).val < win0_6.index t (0 : Fin 2) * 1 + 1
    rw [e0]; omega
  | ⟨1, _⟩ =>
    show win0_6.index t (1 : Fin 2) * 1024 ≤ (i 1).val ∧ (i 1).val < win0_6.index t (1 : Fin 2) * 1024 + 1024
    rw [e1]; omega

/-- The first kernel's result array after its run is the reference's gate row, as a function of the launch memory. -/
theorem gates_eq (m : (ℓ : Loc nD τ sig) → Buf (Elt Ideal) ℓ) (c : Dev nD) :
    (dat0 (F := Ideal) (U1 m) c).arrAt 6 cfg0.N
      = Cert.ReferenceIdeal.Read.val_main_v18 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  exact (dat0 (F := Ideal) (U1 m) c).arrAt_eq_of_cover 6 (gateRow m c) (fun t _ => flushed_gates m c t) gates_covered

end Cert.KernelIdeal.Hand

end
-- ==== Proof.KI.LogitsCover.lean ====
import proofs.«427548_j6846177870457_3_alg».proof.Proof.Gen.KernelIdeal.Launch
import proofs.«427548_j6846177870457_3_alg».proof.Proof.Gen.KernelIdeal.Points
import Idealize.ShloMosaic.Lib.Pipeline.Value

noncomputable section

namespace Cert.KernelIdeal.Hand

open Cert.KernelIdeal Cert.KernelIdeal.Gen Idealize.ShloMosaic

/-! # The seventeen write-backs of the projection kernel cover the logits row

The logits are one row of 50257 columns. Write-back `t` of seventeen writes the row's columns 3072·t …: 3072 of them
for `t < 16`, and the last block, which overhangs the row, only its 1105 columns inside it (16 · 3072 + 1105 = 50257).
So column `j` is written by write-back `j / 3072`. -/

/-- Where block `t` of the output window sits in the logits row and how much of it is inside the row: row 0, columns
    from 3072·t, one row high, 3072 columns wide but for the last block's 1105 (decided over the grid's points). -/
theorem blk1_3_facts : ∀ t : Fin grid1.N, win1_3.index t 0 = 0 ∧ win1_3.index t 1 = t.val
    ∧ win1_3.xsize (grid1.coords t) 0 = 1 ∧ win1_3.xsize (grid1.coords t) 1 = if t.val < 16 then 3072 else 1105 := by
  decide +kernel

/-- Every index of the logits row lies in the block some write-back of the output window writes. -/
theorem cover_logits (i : S1x50257.Idx) : ∃ t : Fin cfg1.N, (cfg1.win 3).flush t = true ∧ i ∈ ((cfg1.win 3).blk t).view.set := by
  have h0 : (i 0 : Nat) < 1 := (i 0).isLt
  have h1 : (i 1 : Nat) < 50257 := (i 1).isLt
  have hN : grid1.N = 17 := N_1
  have ht : (i 1 : Nat) / 3072 < grid1.N := by rw [hN]; omega
  refine ⟨⟨(i 1 : Nat) / 3072, ht⟩, flush1_3 _, ?_⟩
  show i ∈ ((View.whole main_v41).slice (win1_3.rect ⟨(i 1 : Nat) / 3072, ht⟩)).set
  rw [View.set_slice_whole, Rect.mem_set_unit]
  obtain ⟨e0, e1, x0, x1⟩ := blk1_3_facts ⟨(i 1 : Nat) / 3072, ht⟩
  intro a
  match a with
  | ⟨0, _⟩ =>
    -- the one row
    change win1_3.index ⟨(i 1 : Nat) / 3072, ht⟩ 0 * win1_3.size 0 ≤ (i 0 : Nat)
      ∧ (i 0 : Nat) < win1_3.index ⟨(i 1 : Nat) / 3072, ht⟩ 0 * win1_3.size 0 + win1_3.xsize (grid1.coords ⟨(i 1 : Nat) / 3072, ht⟩) 0
    rw [e0, x0]; omega
  | ⟨1, _⟩ =>
    -- column `j` is at or after 3072·(j / 3072) and before the block's end: 3072 further on, or for the last
    -- block 1105 further on, which is the row's end
    change win1_3.index ⟨(i 1 : Nat) / 3072, ht⟩ 1 * win1_3.size 1 ≤ (i 1 : Nat)
      ∧ (i 1 : Nat) < win1_3.index ⟨(i 1 : Nat) / 3072, ht⟩ 1 * win1_3.size 1 + win1_3.xsize (grid1.coords ⟨(i 1 : Nat) / 3072, ht⟩) 1
    rw [e1, x1, show win1_3.size 1 = 3072 from rfl]
    show (i 1 : Nat) / 3072 * 3072 ≤ (i 1 : Nat) ∧ (i 1 : Nat) < (i 1 : Nat) / 3072 * 3072 + if (i 1 : Nat) / 3072 < 16 then 3072 else 1105
    split <;> omega

end Cert.KernelIdeal.Hand

end
-- ==== Proof.KI.Logits.lean ====
import proofs.«427548_j6846177870457_3_alg».proof.Proof.KI.Vals
import proofs.«427548_j6846177870457_3_alg».proof.Proof.KI.LogitsCover
import proofs.«427548_j6846177870457_3_alg».proof.Proof.Gen.KernelIdeal.Regions
import proofs.«427548_j6846177870457_3_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

/-! # The logits the second kernel leaves, over the extended reals

Column `j` of the 1×50257 logits row is written by grid point `j / 3072`: the new hidden state times row `j` of the
output weights, plus the output bias at `j`. A column depends on ONE row of the staged weight block and ONE entry of
the staged bias block, so what the last block's staging rows hold past the arrays' end never reaches a column inside
the array. -/

/-! ## What one grid point stores, read at a column -/

theorem off00 : (![0, 0] : Fin 2 → Nat) = fun _ => 0 := funext fun a => by fin_cases a <;> rfl

/-- The body's three whole loads read the staged blocks and its one whole store leaves its payload. -/
theorem out1_3_eq {F : FTy → Type} [FloatOps F] (x0 : Vec F S1x1024 .f32) (x1 : Vec F S3072x1024 .f32) (x2 : Vec F S1x3072 .f32) :
    out1_3 (F := F) x0 x1 x2 = k1_pay1 x0 x1 x2 := by
  unfold out1_3
  rw [View.canon_unit_zero off00, View.ld_unit_zero off00, View.ld_unit_zero off00, View.ld_unit_zero off00]

/-- The product's left operand at output column `j` and contraction position `k`: entry `k` of the one row. -/
theorem lhs_pay_0 (j : S1x3072.Idx) (q : dot_S1x1024_S3072x1024_S1x3072_1_1_0_0_n_n.contr.Idx) :
    (dot_S1x1024_S3072x1024_S1x3072_1_1_0_0_n_n.lhsIdx j q 0).val = (j 0).val := by
  unfold DotDims.lhsIdx
  rw [dif_neg (show ¬(0 : Fin S1x1024.rank) ∈ dot_S1x1024_S3072x1024_S1x3072_1_1_0_0_n_n.lhsBatch by decide),
    dif_pos (show (0 : Fin S1x1024.rank) ∈ dot_S1x1024_S3072x1024_S1x3072_1_1_0_0_n_n.lhsNonContracting by decide)]
  rfl
theorem lhs_pay_1 (j : S1x3072.Idx) (q : dot_S1x1024_S3072x1024_S1x3072_1_1_0_0_n_n.contr.Idx) :
    (dot_S1x1024_S3072x1024_S1x3072_1_1_0_0_n_n.lhsIdx j q 1).val = (q ⟨0, by decide⟩).val :=
  dot_S1x1024_S3072x1024_S1x3072_1_1_0_0_n_n.lhsIdx_val_of_single rfl j q
/-- The right operand there: row `j` of the weight block, entry `k`. -/
theorem rhs_pay_0 (j : S1x3072.Idx) (q : dot_S1x1024_S3072x1024_S1x3072_1_1_0_0_n_n.contr.Idx) :
    (dot_S1x1024_S3072x1024_S1x3072_1_1_0_0_n_n.rhsIdx j q 0).val = (j 1).val := by
  unfold DotDims.rhsIdx
  rw [dif_neg (show ¬(0 : Fin S3072x1024.rank) ∈ dot_S1x1024_S3072x1024_S1x3072_1_1_0_0_n_n.rhsBatch by decide),
    dif_pos (show (0 : Fin S3072x1024.rank) ∈ dot_S1x1024_S3072x1024_S1x3072_1_1_0_0_n_n.rhsNonContracting by decide)]
  rfl
theorem rhs_pay_1 (j : S1x3072.Idx) (q : dot_S1x1024_S3072x1024_S1x3072_1_1_0_0_n_n.contr.Idx) :
    (dot_S1x1024_S3072x1024_S1x3072_1_1_0_0_n_n.rhsIdx j q 1).val = (q ⟨0, by decide⟩).val :=
  dot_S1x1024_S3072x1024_S1x3072_1_1_0_0_n_n.rhsIdx_val_of_single rfl j q

/-- Over the extended reals, column `j` of the stored block is the staged hidden row times row `j` of the staged
    weight block, plus entry `j` of the staged bias block. -/
theorem out1_3_apply (x0 : Vec Ideal S1x1024 .f32) (x1 : Vec Ideal S3072x1024 .f32) (x2 : Vec Ideal S1x3072 .f32)
    (p : Fin 1) (q : Fin 3072) :
    out1_3 (F := Ideal) x0 x1 x2 (ix2 p q) = (∑ k : Fin 1024, x0 (ix2 p k) * x1 (ix2 q k)) + x2 (ix2 p q) := by
  rw [out1_3_eq]
  unfold k1_pay1
  simp only [shapeCast_self]
  rw [addf_apply]
  refine congrArg (· + x2 (ix2 p q)) ?_
  simp only [matmul]
  rw [Ideal.matmul_constant_zero_apply,
    ← Equiv.sum_comp (ValueIdx.contrEquiv1 dot_S1x1024_S3072x1024_S1x3072_1_1_0_0_n_n 1024 rfl rfl).symm]
  refine Finset.sum_congr rfl fun k _ => ?_
  have hk := ValueIdx.contrEquiv1_symm_val dot_S1x1024_S3072x1024_S1x3072_1_1_0_0_n_n 1024 rfl rfl k
  have el : dot_S1x1024_S3072x1024_S1x3072_1_1_0_0_n_n.lhsIdx (ix2 p q)
      ((ValueIdx.contrEquiv1 dot_S1x1024_S3072x1024_S1x3072_1_1_0_0_n_n 1024 rfl rfl).symm k) = ix2 p k :=
    funext fun a => Fin.ext (by
      match a with
      | ⟨0, _⟩ => exact lhs_pay_0 _ _
      | ⟨1, _⟩ => exact (lhs_pay_1 _ _).trans hk)
  have er : dot_S1x1024_S3072x1024_S1x3072_1_1_0_0_n_n.rhsIdx (ix2 p q)
      ((ValueIdx.contrEquiv1 dot_S1x1024_S3072x1024_S1x3072_1_1_0_0_n_n 1024 rfl rfl).symm k) = ix2 q k :=
    funext fun a => Fin.ext (by
      match a with
      | ⟨0, _⟩ => exact rhs_pay_0 _ _
      | ⟨1, _⟩ => exact (rhs_pay_1 _ _).trans hk)
  rw [truncf_apply, truncf_apply, el, er]

/-! ## The part inside the array does not see the fillers -/

/-- How the three clipped windows cut at grid coordinates `i`: the weight block's rows and the bias block's columns
    are cut where the stored block's columns are, and nothing else is cut. -/
theorem xsize_facts : ∀ i : grid1.Coords,
    win1_1.xsize i 0 = win1_3.xsize i 1 ∧ win1_1.xsize i 1 = 1024 ∧ win1_2.xsize i 0 = 1
      ∧ win1_2.xsize i 1 = win1_3.xsize i 1 ∧ win1_3.xsize i 0 = 1 := by
  decide +kernel

/-- At a moved position a filled block holds the moved part, whatever the filler. -/
theorem fill_eq_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- Over the extended reals the stored block's part inside the array does not depend on the staging contents past the
    arrays' end: a matrix product's column reads one row of the right operand. -/
theorem local1_ideal : Local1 (F := Ideal) := by
  intro i x0 d1 d1' b1 d2 d2' b2
  funext j
  obtain ⟨e10, e11, e20, e21, e30⟩ := xsize_facts i
  show out1_3 x0 (win1_1.fill i d1 b1) (win1_2.fill i d2 b2) (win1_3.xinj i j)
    = out1_3 x0 (win1_1.fill i d1' b1) (win1_2.fill i d2' b2) (win1_3.xinj i j)
  -- the column's coordinates, each below the cut on its axis
  obtain ⟨p, q, hj, hp, hq⟩ : ∃ (p : Fin 1) (q : Fin 3072), win1_3.xinj i j = ix2 p q
      ∧ p.val < win1_3.xsize i 0 ∧ q.val < win1_3.xsize i 1 :=
    ⟨(win1_3.xinj i j) 0, (win1_3.xinj i j) 1, eq_ix2 (n0 := 1) (n1 := 3072) _, (j 0).isLt, (j 1).isLt⟩
  rw [hj, out1_3_apply, out1_3_apply]
  -- row `q` of the weight block and entry `q` of the bias block are moved positions
  have hw : ∀ k : Fin 1024, win1_1.moved i (ix2 q k) = true := fun k =>
    (win1_1.moved_iff i _).mpr fun a => match a with
      | ⟨0, _⟩ => by show q.val < win1_1.xsize i 0; rw [e10]; exact hq
      | ⟨1, _⟩ => by show k.val < win1_1.xsize i 1; rw [e11]; exact k.isLt
  have hb : win1_2.moved i (ix2 p q) = true :=
    (win1_2.moved_iff i _).mpr fun a => match a with
      | ⟨0, _⟩ => by show p.val < win1_2.xsize i 0; rw [e20]; exact p.isLt
      | ⟨1, _⟩ => by show q.val < win1_2.xsize i 1; rw [e21]; exact hq
  rw [fill_eq_of_moved win1_2 i d2 d2' b2 _ hb]
  refine congrArg (· + _) (Finset.sum_congr rfl fun k _ => ?_)
  rw [fill_eq_of_moved win1_1 i d1 d1' b1 _ (hw k)]

/-! ## What the second kernel is entered with -/

section Entry

variable (m : (ℓ : Loc nD τ sig) → Buf (Elt Ideal) ℓ) (c : Dev nD)

/-- The output weights reach the second kernel as launched: no host operation writes them and they are none of the
    first kernel's arrays. -/
theorem U3_arg8 : U3 m c main_arg8 = m ((c : Thread nD τ).loc main_arg8) := by
  show StableHlo.after hostOps1 (W2 m c) (Proc.devRef .tc main_arg8) = _
  rw [StableHlo.after_of_writes_sub hostOps1 _ hostOps1_writes (by decide), W2_of_ne m c main_arg8 (by decide)]
  show StableHlo.after hostOps0 (W0 m c) (Proc.devRef .tc main_arg8) = _
  rw [StableHlo.after_of_writes_sub hostOps0 _ hostOps0_writes (by decide)]

/-- The bias vector reaches the second stretch of host operations as launched. -/
theorem W2_arg9 : W2 m c (Proc.devRef .tc main_arg9) = m ((c : Thread nD τ).loc main_arg9) := by
  rw [W2_of_ne m c main_arg9 (by decide)]
  show StableHlo.after hostOps0 (W0 m c) (Proc.devRef .tc main_arg9) = _
  rw [StableHlo.after_of_writes_sub hostOps0 _ hostOps0_writes (by decide)]

/-- The bias row the second kernel is entered with is the bias vector laid out as one row. -/
theorem U3_v40 : U3 m c main_v40 = shapeCast S1x50257 (m ((c : Thread nD τ).loc main_arg9)) shapeCasts_S50257_S1x50257 := by
  show StableHlo.after hostOps1 (W2 m c) (Proc.devRef .tc main_v40) = _
  rw [← W2_arg9 m c]
  generalize W2 m c = V
  after_results
  rfl

end Entry

/-! ## What each grid point writes back -/

/-- Where the four windows' blocks sit at point `t`: the hidden state's at the origin, the weight's at row block `t`,
    the bias's and the logits' at column block `t`. -/
theorem idx_facts1 : ∀ t : Fin cfg1.N,
    win1_0.index t 0 = 0 ∧ win1_0.index t 1 = 0 ∧ win1_1.index t 0 = t.val ∧ win1_1.index t 1 = 0
      ∧ win1_2.index t 0 = 0 ∧ win1_2.index t 1 = t.val ∧ win1_3.index t 0 = 0 ∧ win1_3.index t 1 = t.val :=
  (by decide +kernel : ∀ t : Fin grid1.N, _)

/-- At a moved position a filled block holds the moved part there. -/
theorem fill_of_moved {G : Pipeline.Grid} (w : Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Window.fill; rw [dif_pos h]

/-- Column `j` of what point `t` writes back, which is column `n = 3072·t + j` of the array: the hidden state `h` the
    kernel is entered with times row `n` of the weights `W`, plus entry `n` of the bias row `b`. -/
theorem flushed1_3_apply (V : (c : Dev nD) → (b : Ref sig .tc) → Buf (Elt Ideal) ((c : Thread nD τ).loc b)) (c : Dev nD)
    (t : Fin cfg1.N) (j : (win1_3.xblock (grid1.coords t)).Idx) (n : Fin 50257) (hn : n.val = t.val * 3072 + (j 1).val)
    (h : Vec Ideal S1x1024 .f32) (W : Vec Ideal S50257x1024 .f32) (b : Vec Ideal S1x50257 .f32)
    (eh : V c main_v39 = h) (eW : V c main_arg8 = W) (eb : V c main_v40 = b) :
    (dat1 (F := Ideal) V c).flushed 3 t j = (∑ k : Fin 1024, h (ix2 0 k) * W (ix2 n k)) + b (ix2 0 n) := by
  subst eh eW eb
  show win1_3.cut (grid1.coords t) ((dat1 V c).after 3 t) j = _
  rw [after1_3]
  show out1_3 (iblk1 V c 0 t) (wfill V c t) (bfill V c t) (win1_3.xinj (grid1.coords t) j) = _
  obtain ⟨e10, e11, e20, e21, e30⟩ := xsize_facts (grid1.coords t)
  obtain ⟨i00, i01, i10, i11, i20, i21, i30, i31⟩ := idx_facts1 t
  obtain ⟨p, q, hj, hq, hqj⟩ : ∃ (p : Fin 1) (q : Fin 3072), win1_3.xinj (grid1.coords t) j = ix2 p q
      ∧ q.val < win1_3.xsize (grid1.coords t) 1 ∧ q.val = (j 1).val :=
    ⟨(win1_3.xinj (grid1.coords t) j) 0, (win1_3.xinj (grid1.coords t) j) 1, eq_ix2 (n0 := 1) (n1 := 3072) _, (j 1).isLt, rfl⟩
  obtain rfl : p = 0 := Subsingleton.elim _ _
  rw [hj, out1_3_apply]
  have hw : ∀ k : Fin 1024, win1_1.moved (grid1.coords t) (ix2 q k) = true := fun k =>
    (win1_1.moved_iff _ _).mpr fun a => match a with
      | ⟨0, _⟩ => by show q.val < win1_1.xsize (grid1.coords t) 0; rw [e10]; exact hq
      | ⟨1, _⟩ => by show k.val < win1_1.xsize (grid1.coords t) 1; rw [e11]; exact k.isLt
  have hb : win1_2.moved (grid1.coords t) (ix2 0 q) = true :=
    (win1_2.moved_iff _ _).mpr fun a => match a with
      | ⟨0, _⟩ => by show 0 < win1_2.xsize (grid1.coords t) 0; rw [e20]; exact Nat.one_pos
      | ⟨1, _⟩ => by show q.val < win1_2.xsize (grid1.coords t) 1; rw [e21]; exact hq
  -- the bias entry
  have hbias : bfill V c t (ix2 0 q) = V c main_v40 (ix2 0 n) := by
    unfold bfill
    rw [fill_of_moved win1_2 _ _ _ _ hb]
    show V c main_v40 (((cfg1.win 2).blk t).view.emb _) = _
    refine congrArg (V c main_v40) (funext fun a => Fin.ext ?_)
    match a with
    | ⟨0, _⟩ => show win1_2.index t 0 * 1 + 1 * 0 = 0; rw [i20]
    | ⟨1, _⟩ => show win1_2.index t 1 * 3072 + 1 * q.val = n.val; rw [i21, hn, hqj]; omega
  rw [hbias]
  refine congrArg (· + _) (Finset.sum_congr rfl fun k _ => ?_)
  -- the hidden state's entry and the weight's
  have hhid : iblk1 V c 0 t (ix2 0 k) = V c main_v39 (ix2 0 k) := by
    show V c main_v39 (((cfg1.win 0).blk t).view.emb _) = _
    refine congrArg (V c main_v39) (funext fun a => Fin.ext ?_)
    match a with
    | ⟨0, _⟩ => show win1_0.index t 0 * 1 + 1 * 0 = 0; rw [i00]
    | ⟨1, _⟩ => show win1_0.index t 1 * 1024 + 1 * k.val = k.val; rw [i01]; omega
  have hwt : wfill V c t (ix2 q k) = V c main_arg8 (ix2 n k) := by
    unfold wfill
    rw [fill_of_moved win1_1 _ _ _ _ (hw k)]
    show V c main_arg8 (((cfg1.win 1).blk t).view.emb _) = _
    refine congrArg (V c main_arg8) (funext fun a => Fin.ext ?_)
    match a with
    | ⟨0, _⟩ => show win1_1.index t 0 * 3072 + 1 * q.val = n.val; rw [i10, hn, hqj]; omega
    | ⟨1, _⟩ => show win1_1.index t 1 * 1024 + 1 * k.val = k.val; rw [i11]; omega
  rw [hhid, hwt]

/-- Where a cut block's last column falls: block `t` ends where the next begins or at the array's end. -/
theorem xsize3_end : ∀ t : Fin cfg1.N, t.val * 3072 + win1_3.xsize (grid1.coords t) 1 = min ((t.val + 1) * 3072) 50257 :=
  (by decide +kernel : ∀ t : Fin grid1.N, _)

/-- The second kernel's result array after its run is the reference's logits row, as a function of the launch memory —
    given that the hidden state it is entered with is the reference's. -/
theorem logits_eq (m : (ℓ : Loc nD τ sig) → Buf (Elt Ideal) ℓ) (c : Dev nD)
    (hh : U3 m c main_v39 = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    (dat1 (F := Ideal) (U3 m) c).arrAt 3 cfg1.N
      = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  -- every write-back writes its block of the reference's row, and the seventeen blocks cover the row
  refine (dat1 (F := Ideal) (U3 m) c).arrAt_eq_of_cover 3 _ (fun t _ => ?_) cover_logits
  funext j
  obtain ⟨i00, i01, i10, i11, i20, i21, i30, i31⟩ := idx_facts1 t
  obtain ⟨e10, e11, e20, e21, e30⟩ := xsize_facts (grid1.coords t)
  have hj0 : (j 0).val < win1_3.xsize (grid1.coords t) 0 := (j 0).isLt
  have hj1 : (j 1).val < win1_3.xsize (grid1.coords t) 1 := (j 1).isLt
  have hend := xsize3_end t
  -- the array's column under the block's column `j`
  obtain ⟨n, hn⟩ : ∃ n : Fin 50257, n.val = t.val * 3072 + (j 1).val := ⟨⟨t.val * 3072 + (j 1).val, by omega⟩, rfl⟩
  rw [flushed1_3_apply (U3 m) c t j n hn _ _ _ hh (U3_arg8 m c) (U3_v40 m c)]
  have hemb : ((cfg1.win 3).blk t).view.emb j = ix2 0 n := funext fun a => Fin.ext (by
    match a with
    | ⟨0, _⟩ => show win1_3.index t 0 * 1 + 1 * (j 0).val = 0; rw [i30]; omega
    | ⟨1, _⟩ => show win1_3.index t 1 * 3072 + 1 * (j 1).val = n.val; rw [i31, hn]; omega)
  show _ = Cert.ReferenceIdeal.Read.val_main_v50 (F := Ideal) _ _ _ _ _ _ _ _ _ _ (((cfg1.win 3).blk t).view.emb j)
  rw [hemb, Cert.ReferenceIdeal.Read.val_main_v50_apply, Cert.ReferenceIdeal.Read.val_main_v48_apply,
    Cert.ReferenceIdeal.Read.val_main_v49_apply]
  -- the hidden state, the weights and the bias vector as opaque arrays
  generalize Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = h
  generalize m ((c : Thread nD τ).loc main_arg8) = W
  generalize m ((c : Thread nD τ).loc main_arg9) = b
  show _ + _ = _ + _
  refine congrArg₂ (· + ·) (Finset.sum_congr rfl fun k _ => ?_) ?_
  · rw [Cert.ReferenceIdeal.Read.val_main_v47_apply]
    have el : ix2 0 k = Cert.ReferenceIdeal.Read.lidx_main_v48 (ix2 0 n) k := funext fun a => Fin.ext (by
      match a with
      | ⟨0, _⟩ => rfl
      | ⟨1, _⟩ => rfl)
    have er : ix2 n k = Cert.ReferenceIdeal.Read.idx_main_v47 (Cert.ReferenceIdeal.Read.ridx_main_v48 (ix2 0 n) k) :=
      funext fun a => Fin.ext (by
        match a with
        | ⟨0, _⟩ => rfl
        | ⟨1, _⟩ => rfl)
    rw [el, er]
  · -- the bias vector laid out as one row, at column `n`
    exact shapeCast_apply b shapeCasts_S50257_S1x50257 (ix2 0 n) _
      (by
        show (S50257.rowMajor (Cert.ReferenceIdeal.Read.idx_main_v49 (ix2 0 n))).val = (S1x50257.rowMajor (ix2 0 n)).val
        rw [Shape.rowMajor_val_one, Shape.rowMajor_val_two]
        show n.val = 0 * (![1, 50257] : Fin 2 → Nat) 1 + n.val
        omega)

end Cert.KernelIdeal.Hand

end
-- ==== Proof.KI.Value.lean ====
import proofs.«427548_j6846177870457_3_alg».proof.Proof.Gen.KernelIdeal.Launch
import proofs.«427548_j6846177870457_3_alg».proof.Proof.Gen.KernelIdeal.Skeleton
import proofs.«427548_j6846177870457_3_alg».proof.Proof.Gen.KernelIdeal.Points
import proofs.«427548_j6846177870457_3_alg».proof.Proof.KI.Ends
import proofs.«427548_j6846177870457_3_alg».proof.Proof.KI.Args
import proofs.«427548_j6846177870457_3_alg».proof.Proof.KI.Combine
import proofs.«427548_j6846177870457_3_alg».proof.Proof.KI.Gates
import proofs.«427548_j6846177870457_3_alg».proof.Proof.KI.Logits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

/-! # The idealized kernel's run with its results named

Over the extended reals the second kernel's result is local (a logits column reads one weight row), so the run can
be read naming the logits: they end at the exact write-backs' contents, which are the reference's logits row; the two
reshaped results are the reference's new hidden and cell states. -/

theorem value_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v41) = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v42) = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_v43) = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    obtain ⟨A, hA, hmem⟩ := h c
    have hg := gates_eq m c
    have hh := hidden_eq m c hg
    obtain ⟨h0, h1, h2, h3, h4, h5, h6, h7, h8, h9⟩ := W5_args m c A (ends_weights m _ c A hA)
    exact ⟨(hmem _ (mem_uc main_v41 (by decide))).trans ((W5_logits m c A).trans ((ends_logits m _ c A rfl hA).trans (logits_eq m c hh))),
      (hmem _ (mem_uc main_v42 (by decide))).trans (W5_hidden m c A (ends_hidden m _ c A hA) hg),
      (hmem _ (mem_uc main_v43 (by decide))).trans (W5_cell m c A hg),
      (hmem _ (mem_uc main_arg0 (by decide))).trans h0,
      (hmem _ (mem_uc main_arg1 (by decide))).trans h1,
      (hmem _ (mem_uc main_arg2 (by decide))).trans h2,
      (hmem _ (mem_uc main_arg3 (by decide))).trans h3,
      (hmem _ (mem_uc main_arg4 (by decide))).trans h4,
      (hmem _ (mem_uc main_arg5 (by decide))).trans h5,
      (hmem _ (mem_uc main_arg6 (by decide))).trans h6,
      (hmem _ (mem_uc main_arg7 (by decide))).trans h7,
      (hmem _ (mem_uc main_arg8 (by decide))).trans h8,
      (hmem _ (mem_uc main_arg9 (by decide))).trans h9⟩)
    (run m (fun _ => false) (fun c => body_obligation1_exact (U3 m) local1_ideal c) ρ)

end Cert.KernelIdeal.Hand

end
-- ==== Proof.lean ====
/-
  A single LSTM decode step — embedding row, gate pre-activations, gate activations and cell update, output
  projection — as two TPU kernels between host operations, against the same step written with plain array
  operations. Over the extended reals the two compute one function of the arguments:
  * gates: each 1024-column piece of the gate row is the embedded row (clamped at zero) times a slab of the input
    weights plus the hidden state times a slab of the recurrent weights plus the two bias pieces — the reference's
    four addends in another order (addition is commutative and associative);
  * the activations and the cell update are the same host operations on both sides;
  * logits: each 3072-column piece is the new hidden state times a slab of the output weights plus a bias piece.
    The last piece overhangs the arrays; what the staging rows hold past the arrays' end reaches only columns that
    are never written back, because a column of a matrix product reads one row of the right operand.
  At the word level the matrix unit's term is an uninterpreted function of the whole right operand, so there the
  logits are not named: the frame claim reads the run with the second kernel's output window forgotten.
-/
import proofs.«427548_j6846177870457_3_alg».proof.Defs
import proofs.«427548_j6846177870457_3_alg».proof.Proof.Gen.Kernel
import proofs.«427548_j6846177870457_3_alg».proof.Proof.Gen.KernelIdeal
import proofs.«427548_j6846177870457_3_alg».proof.Proof.Gen.ReferenceIdeal
import proofs.«427548_j6846177870457_3_alg».proof.Proof.Gen.Pre_finite_inputs
import proofs.«427548_j6846177870457_3_alg».proof.Proof.Gen.ReferenceIdeal.Run
import proofs.«427548_j6846177870457_3_alg».proof.Proof.Gen.ReferenceIdeal.Read
import proofs.«427548_j6846177870457_3_alg».proof.Proof.K.Frame
import proofs.«427548_j6846177870457_3_alg».proof.Proof.KI.Frame
import proofs.«427548_j6846177870457_3_alg».proof.Proof.KI.Value
import Idealize.ShloMosaic.Adequacy
import Idealize.ShloMosaic.Init

noncomputable section

namespace Cert.Proof

open Idealize.ShloMosaic Idealize.ShloMosaic.TcCoe Idealize.SL.Sem

/-- The word-level program's frame: the run read with the second kernel's output window forgotten. -/
theorem frame_k : Cert.frame_Kernel := fun m ρ _ =>
  Cert.Kernel.Hand.frame_of (F := Bits) m Cert.Kernel.Hand.fgtOut
    (fun c => Cert.Kernel.Hand.body_obligation1_forget (Cert.Kernel.Hand.U3 m) c) ρ

/-- The idealized program's frame, read the same way. -/
theorem frame_ki : Cert.frame_KernelIdeal := fun m ρ _ =>
  Cert.KernelIdeal.Hand.frame_of (F := Ideal) m Cert.KernelIdeal.Hand.fgtOut
    (fun c => Cert.KernelIdeal.Hand.body_obligation1_forget (Cert.KernelIdeal.Hand.U3 m) c) ρ

/-- The reference's frame: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- Both programs end at the reference's three stage functions of the (agreeing) arguments. -/
theorem algebraic : Cert.algebraic_KernelIdeal_ReferenceIdeal := by
  intro m ρ m' ρ' _ hagree
  refine ⟨_, _, _, Cert.KernelIdeal.Hand.value_run m ρ, ?_⟩
  refine (θ_run Cert.ReferenceIdeal.defs _ _).mono (fun r h c => ?_) (Cert.ReferenceIdeal.Value.run (F := Ideal) m' ρ')
  obtain ⟨e0, e1, e2, e3, e4, e5, e6, e7, e8, e9⟩ := hagree c
  refine ⟨(h c).1.trans ?_, (h c).2.1.trans ?_, (h c).2.2.1.trans ?_, (h c).2.2.2⟩
  · rw [Cert.ReferenceIdeal.Read.val_main_v50_eq, e0, e1, e2, e3, e4, e5, e6, e7, e8, e9]
  · rw [Cert.ReferenceIdeal.Read.val_main_v51_eq, e0, e1, e2, e3, e4, e5, e6, e7]
  · rw [Cert.ReferenceIdeal.Read.val_main_v52_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
